-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x64 : Shape := ⟨2, ![4194304, 64]⟩
abbrev S4194304 : Shape := ⟨1, ![4194304]⟩
abbrev S_ : Shape := ⟨0, ![]⟩

class Facts : Prop where
  bcast_S_S4194304x64 : S_.BroadcastsInDim S4194304x64 (![] : Fin 0 → Fin S4194304x64.rank)
  reducesTo_S4194304x64_S_d0_1 : S4194304x64.ReducesTo [0, 1] S_
  h_S_ : 0 < S_.numel
  bcast_S_S4194304 : S_.BroadcastsInDim S4194304 (![] : Fin 0 → Fin S4194304.rank)
  reducesTo_S4194304_S_d0 : S4194304.ReducesTo [0] S_

variable [Facts]

def fn_part1 {F : FTy → Type} [FloatOps F] (main_v10 : IVec S_ 1) (main_v15 : IVec S4194304 1) (main_c_5 : IVec S_ 1) : IVec S_ 1 :=
  let main_v16 : IVec S_ 1 := (fun x v => Host.reduce IntOp.andi x v reducesTo_S4194304_S_d0 h_S_) main_v15 main_c_5
  let main_v17 : IVec S_ 1 := andi main_v10 main_v16
  main_v17

def fn {F : FTy → Type} [FloatOps F] (main_arg0 : FVec F S4194304x64 .f32) (main_arg1 : IVec S4194304 32) (main_arg2 : IVec S4194304 32) : IVec S_ 1 :=
  let main_v0 : FVec F S4194304x64 .f32 := Host.absf main_arg0
  let main_cst : FVec F S_ .f32 := constant S_ .f32 0x7F800000#32
  let main_v1 : FVec F S4194304x64 .f32 := broadcastInDim S4194304x64 ![] bcast_S_S4194304x64 main_cst
  let main_v2 : IVec S4194304x64 1 := cmpf .olt main_v0 main_v1
  let main_c : IVec S_ 1 := constantI S_ 1 1#1
  let main_v3 : IVec S_ 1 := (fun x v => Host.reduce IntOp.andi x v reducesTo_S4194304x64_S_d0_1 h_S_) main_v2 main_c
  let main_c_0 : IVec S_ 32 := constantI S_ 32 0#32
  let main_v4 : IVec S4194304 32 := broadcastInDim S4194304 ![] bcast_S_S4194304 main_c_0
  let main_v5 : IVec S4194304 1 := cmpi .sge main_arg1 main_v4
  let main_c_1 : IVec S_ 32 := constantI S_ 32 64#32
  let main_v6 : IVec S4194304 32 := broadcastInDim S4194304 ![] bcast_S_S4194304 main_c_1
  let main_v7 : IVec S4194304 1 := cmpi .slt main_arg1 main_v6
  let main_v8 : IVec S4194304 1 := andi main_v5 main_v7
  let main_c_2 : IVec S_ 1 := constantI S_ 1 1#1
  let main_v9 : IVec S_ 1 := (fun x v => Host.reduce IntOp.andi x v reducesTo_S4194304_S_d0 h_S_) main_v8 main_c_2
  let main_v10 : IVec S_ 1 := andi main_v3 main_v9
  let main_c_3 : IVec S_ 32 := constantI S_ 32 0#32
  let main_v11 : IVec S4194304 32 := broadcastInDim S4194304 ![] bcast_S_S4194304 main_c_3
  let main_v12 : IVec S4194304 1 := cmpi .sge main_arg2 main_v11
  let main_c_4 : IVec S_ 32 := constantI S_ 32 16#32
  let main_v13 : IVec S4194304 32 := broadcastInDim S4194304 ![] bcast_S_S4194304 main_c_4
  let main_v14 : IVec S4194304 1 := cmpi .slt main_arg2 main_v13
  let main_v15 : IVec S4194304 1 := andi main_v12 main_v14
  let main_c_5 : IVec S_ 1 := constantI S_ 1 1#1
  fn_part1 (F := F) main_v10 main_v15 main_c_5
-- ==== Kernel.lean ====
abbrev S4194304x64 : Shape := ⟨2, ![4194304, 64]⟩
abbrev S4194304 : Shape := ⟨1, ![4194304]⟩
abbrev S16x16 : Shape := ⟨2, ![16, 16]⟩
abbrev S8192x64 : Shape := ⟨2, ![8192, 64]⟩
abbrev S8192 : Shape := ⟨1, ![8192]⟩
abbrev S8x16 : Shape := ⟨2, ![8, 16]⟩
abbrev S8192x1 : Shape := ⟨2, ![8192, 1]⟩
abbrev S8192x16 : Shape := ⟨2, ![8192, 16]⟩
abbrev S8192x2 : Shape := ⟨2, ![8192, 2]⟩
abbrev S16x2 : Shape := ⟨2, ![16, 2]⟩
abbrev S1x16 : Shape := ⟨2, ![1, 16]⟩
abbrev S16 : Shape := ⟨1, ![16]⟩
abbrev S16x1 : Shape := ⟨2, ![16, 1]⟩
abbrev S2x8x16 : Shape := ⟨3, ![2, 8, 16]⟩
abbrev S_ : Shape := ⟨0, ![]⟩

abbrev nBuf : Space → Nat
  | .hbm => 26
  | .vmem => 10
  | .smem => 0
  | _ => 0

abbrev bufTy : (tb : Table) → Fin (tcTables nBuf tb) → BufTy
  | .hbm, ⟨0, _⟩ => ⟨S4194304x64, .f32⟩
  | .hbm, ⟨1, _⟩ => ⟨S4194304, .i32⟩
  | .hbm, ⟨2, _⟩ => ⟨S4194304, .i32⟩
  | .hbm, ⟨3, _⟩ => ⟨S16x16, .f32⟩
  | .hbm, ⟨4, _⟩ => ⟨S16x16, .f32⟩
  | .hbm, ⟨5, _⟩ => ⟨S2x8x16, .f32⟩
  | .hbm, ⟨6, _⟩ => ⟨S_, .f32⟩
  | .hbm, ⟨7, _⟩ => ⟨S16, .f32⟩
  | .hbm, ⟨8, _⟩ => ⟨S2x8x16, .f32⟩
  | .hbm, ⟨9, _⟩ => ⟨S_, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .i1⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S8192x64, .f32⟩
  | .local _ .vmem, ⟨1, _⟩ => ⟨S8192x64, .f32⟩
  | .local _ .vmem, ⟨2, _⟩ => ⟨S8192, .i32⟩
  | .local _ .vmem, ⟨3, _⟩ => ⟨S8192, .i32⟩
  | .local _ .vmem, ⟨4, _⟩ => ⟨S8192, .i32⟩
  | .local _ .vmem, ⟨5, _⟩ => ⟨S8192, .i32⟩
  | .local _ .vmem, ⟨6, _⟩ => ⟨S8x16, .f32⟩
  | .local _ .vmem, ⟨7, _⟩ => ⟨S8x16, .f32⟩
  | .local _ .vmem, ⟨8, _⟩ => ⟨S8x16, .f32⟩
  | .local _ .vmem, ⟨9, _⟩ => ⟨S8x16, .f32⟩
  | _, _ => ⟨S4194304x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_call0_v0 : Ref sig .tc := ⟨.hbm, 19, rfl⟩
abbrev main_call0_v1 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_cst_5 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 256], ![false, false]⟩

def cc0_transform_0 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  ![v1.toNat]

def cc0_transform_2 (i : grid0.Coords) : Fin 1 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  ![v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S8x16_S8x16_0_0 : ∀ a, (![0, 0] : Fin 2 → Nat) a + S8x16.size a ≤ S8x16.size a
  h_S8x16 : 0 < S8x16.numel
  inb_S8192x64_S8192x64_0_0 : ∀ a, (![0, 0] : Fin 2 → Nat) a + S8192x64.size a ≤ S8192x64.size a
  h_S8192x64 : 0 < S8192x64.numel
  reduces_S8192x64_S8192 : S8192x64.Reduces [1] S8192
  shapeCasts_S8192_S8192x1 : S8192.ShapeCasts S8192x1
  broadcasts_S8192x1_S8192x64 : S8192x1.Broadcasts S8192x64
  inb_S8192_S8192_0 : ∀ a, (![0] : Fin 1 → Nat) a + S8192.size a ≤ S8192.size a
  h_S8192 : 0 < S8192.numel
  iota_S8192x64_d1_w32 : S8192x64.Iotas .tc 32 [1]
  iota_S8192x16_d1_w32 : S8192x16.Iotas .tc 32 [1]
  broadcasts_S8192x1_S8192x16 : S8192x1.Broadcasts S8192x16
  natLt_1_32 : 1 < 32
  bitsLt_bf16_f32 : FTy.bits .bf16 < FTy.bits .f32
  concatenates_S8192x1_S8192x1_S8192x2_d1 : Shape.Concatenates [S8192x1, S8192x1] S8192x2 1
  inb_S8x16_S1x16_0_0 : ∀ a, (![0, 0] : Fin 2 → Nat) a + S1x16.size a ≤ S8x16.size a
  h_S1x16 : 0 < S1x16.numel
  shapeCasts_S1x16_S16 : S1x16.ShapeCasts S16
  slices_S16x2_o0_0_S16x1 : S16x2.Slices ![0, 0] S16x1
  shapeCasts_S16x1_S16 : S16x1.ShapeCasts S16
  shapeCasts_S16_S1x16 : S16.ShapeCasts S1x16
  slices_S16x2_o0_1_S16x1 : S16x2.Slices ![0, 1] S16x1
  shapeCasts_S16x16_S2x8x16 : S16x16.ShapeCasts S2x8x16
  reducesTo_S2x8x16_S16_d0_1 : S2x8x16.ReducesTo [0, 1] S16
  h_S_ : 0 < S_.numel
  bcast_S_S16 : S_.BroadcastsInDim S16 (![] : Fin 0 → Fin S16.rank)
  reducesTo_S16_S_d0 : S16.ReducesTo [0] S_
  dot_S8192x16_S8192x2_S16x2_0_0_1_1_n_n_wf : DotDims.WF S8192x16 S8192x2 S16x2 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S4194304x64.size a
  hwx0_0 : ∀ i : grid0.Coords, EltTy.bits .f32 = 32 ∨ (Rect.block (s := S4194304x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S4194304.size a
  hwx0_1 : ∀ i : grid0.Coords, EltTy.bits .i32 = 32 ∨ (Rect.block (s := S4194304) S8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192.size a ≤ S4194304.size a
  hwx0_2 : ∀ i : grid0.Coords, EltTy.bits .i32 = 32 ∨ (Rect.block (s := S4194304) S8192.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x16.size a ≤ S16x16.size a
  hwx0_3 : ∀ i : grid0.Coords, EltTy.bits .f32 = 32 ∨ (Rect.block (s := S16x16) S8x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x16.size a ≤ S16x16.size a
  hwx0_4 : ∀ i : grid0.Coords, EltTy.bits .f32 = 32 ∨ (Rect.block (s := S16x16) S8x16.size (cc0_transform_4 i) (hinb0_4 i)).WholeWords (EltTy.packing .f32)

variable [Facts₀]

def dot_S8192x16_S8192x2_S16x2_0_0_1_1_n_n : DotDims S8192x16 S8192x2 S16x2 where
  lhsContracting := [0]
  rhsContracting := [0]
  lhsNonContracting := [1]
  rhsNonContracting := [1]
  lhsBatch := []
  rhsBatch := []
  wf := dot_S8192x16_S8192x2_S16x2_0_0_1_1_n_n_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S8x16.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S8x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4194304x64 : Shape := ⟨2, ![4194304, 64]⟩
abbrev S4194304 : Shape := ⟨1, ![4194304]⟩
abbrev S_ : Shape := ⟨0, ![]⟩
abbrev S4194304x1 : Shape := ⟨2, ![4194304, 1]⟩
abbrev S4194304x1x1 : Shape := ⟨3, ![4194304, 1, 1]⟩
abbrev S1 : Shape := ⟨1, ![1]⟩
abbrev S1x1x1 : Shape := ⟨3, ![1, 1, 1]⟩
abbrev S16 : Shape := ⟨1, ![16]⟩

abbrev nBuf : Space → Nat
  | .hbm => 68
  | .vmem => 0
  | .smem => 0
  | _ => 0

abbrev bufTy : (tb : Table) → Fin (tcTables nBuf tb) → BufTy
  | .hbm, ⟨0, _⟩ => ⟨S4194304x64, .f32⟩
  | .hbm, ⟨1, _⟩ => ⟨S4194304, .i32⟩
  | .hbm, ⟨2, _⟩ => ⟨S4194304, .i32⟩
  | .hbm, ⟨3, _⟩ => ⟨S_, .f32⟩
  | .hbm, ⟨4, _⟩ => ⟨S4194304, .f32⟩
  | .hbm, ⟨5, _⟩ => ⟨S_, .f32⟩
  | .hbm, ⟨6, _⟩ => ⟨S4194304, .f32⟩
  | .hbm, ⟨7, _⟩ => ⟨S4194304, .f32⟩
  | .hbm, ⟨8, _⟩ => ⟨S4194304x1, .f32⟩
  | .hbm, ⟨9, _⟩ => ⟨S4194304x64, .f32⟩
  | .hbm, ⟨10, _⟩ => ⟨S4194304x64, .f32⟩
  | .hbm, ⟨11, _⟩ => ⟨S4194304x64, .f32⟩
  | .hbm, ⟨12, _⟩ => ⟨S_, .f32⟩
  | .hbm, ⟨13, _⟩ => ⟨S4194304, .f32⟩
  | .hbm, ⟨14, _⟩ => ⟨S4194304x1, .f32⟩
  | .hbm, ⟨15, _⟩ => ⟨S4194304x1, .f32⟩
  | .hbm, ⟨16, _⟩ => ⟨S4194304x64, .f32⟩
  | .hbm, ⟨17, _⟩ => ⟨S4194304x64, .f32⟩
  | .hbm, ⟨18, _⟩ => ⟨S4194304x1, .i32⟩
  | .hbm, ⟨19, _⟩ => ⟨S_, .i32⟩
  | .hbm, ⟨20, _⟩ => ⟨S4194304x1, .i32⟩
  | .hbm, ⟨21, _⟩ => ⟨S4194304x1, .i1⟩
  | .hbm, ⟨22, _⟩ => ⟨S_, .i32⟩
  | .hbm, ⟨23, _⟩ => ⟨S4194304x1, .i32⟩
  | .hbm, ⟨24, _⟩ => ⟨S4194304x1, .i32⟩
  | .hbm, ⟨25, _⟩ => ⟨S4194304x1, .i32⟩
  | .hbm, ⟨26, _⟩ => ⟨S4194304x1x1, .i32⟩
  | .hbm, ⟨27, _⟩ => ⟨S1, .i32⟩
  | .hbm, ⟨28, _⟩ => ⟨S_, .i32⟩
  | .hbm, ⟨29, _⟩ => ⟨S4194304x1x1, .i32⟩
  | .hbm, ⟨30, _⟩ => ⟨S4194304x1x1, .i1⟩
  | .hbm, ⟨31, _⟩ => ⟨S1x1x1, .i32⟩
  | .hbm, ⟨32, _⟩ => ⟨S4194304x1x1, .i32⟩
  | .hbm, ⟨33, _⟩ => ⟨S4194304x1x1, .i1⟩
  | .hbm, ⟨34, _⟩ => ⟨S4194304x1x1, .i1⟩
  | .hbm, ⟨35, _⟩ => ⟨S_, .i1⟩
  | .hbm, ⟨36, _⟩ => ⟨S4194304x1, .i1⟩
  | .hbm, ⟨37, _⟩ => ⟨S4194304x1, .f32⟩
  | .hbm, ⟨38, _⟩ => ⟨S_, .f32⟩
  | .hbm, ⟨39, _⟩ => ⟨S4194304x1, .f32⟩
  | .hbm, ⟨40, _⟩ => ⟨S4194304x1, .f32⟩
  | .hbm, ⟨41, _⟩ => ⟨S4194304, .f32⟩
  | .hbm, ⟨42, _⟩ => ⟨S4194304, .f32⟩
  | .hbm, ⟨43, _⟩ => ⟨S_, .f32⟩
  | .hbm, ⟨44, _⟩ => ⟨S16, .f32⟩
  | .hbm, ⟨45, _⟩ => ⟨S4194304x1, .i32⟩
  | .hbm, ⟨46, _⟩ => ⟨S16, .f32⟩
  | .hbm, ⟨47, _⟩ => ⟨S_, .f32⟩
  | .hbm, ⟨48, _⟩ => ⟨S4194304, .f32⟩
  | .hbm, ⟨49, _⟩ => ⟨S_, .f32⟩
  | .hbm, ⟨50, _⟩ => ⟨S16, .f32⟩
  | .hbm, ⟨51, _⟩ => ⟨S4194304x1, .i32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .i1⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S16, .f32⟩
  | .hbm, ⟨60, _⟩ => ⟨S_, .f32⟩
  | .hbm, ⟨61, _⟩ => ⟨S_, .f32⟩
  | .hbm, ⟨62, _⟩ => ⟨S16, .f32⟩
  | .hbm, ⟨63, _⟩ => ⟨S16, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | _, _ => ⟨S4194304x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_cst_0 : Ref sig .tc := ⟨.hbm, 47, rfl⟩
abbrev main_v8 : Ref sig .tc := ⟨.hbm, 48, rfl⟩
abbrev main_cst_1 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_cst_2 : Ref sig .tc := ⟨.hbm, 53, rfl⟩
abbrev main_v12 : Ref sig .tc := ⟨.hbm, 54, rfl⟩
abbrev main_v13 : Ref sig .tc := ⟨.hbm, 55, rfl⟩
abbrev main_cst_3 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_cst_4 : Ref sig .tc := ⟨.hbm, 60, rfl⟩
abbrev main_call2_v0 : Ref sig .tc := ⟨.hbm, 61, rfl⟩
abbrev main_call2_v1 : Ref sig .tc := ⟨.hbm, 62, rfl⟩
abbrev main_v17 : Ref sig .tc := ⟨.hbm, 63, rfl⟩
abbrev main_cst_5 : Ref sig .tc := ⟨.hbm, 64, rfl⟩
abbrev main_v18 : Ref sig .tc := ⟨.hbm, 65, rfl⟩
abbrev main_cst_6 : Ref sig .tc := ⟨.hbm, 66, rfl⟩
abbrev main_v19 : Ref sig .tc := ⟨.hbm, 67, rfl⟩

abbrev nD : Nat := 1
abbrev τ : Topo := Topo.v7x

variable {F : FTy → Type} [FloatOps F]

class Facts₀ : Prop where
  reducesTo_S4194304x64_S4194304_d1 : S4194304x64.ReducesTo [1] S4194304
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S4194304x1_S4194304x64_0_1 : S4194304x1.BroadcastsInDim S4194304x64 (![0, 1] : Fin 2 → Fin S4194304x64.rank)
  bcast_S_S4194304x1 : S_.BroadcastsInDim S4194304x1 (![] : Fin 0 → Fin S4194304x1.rank)
  shapeCasts_S4194304x1_S4194304x1x1 : S4194304x1.ShapeCasts S4194304x1x1
  bcast_S_S4194304x1x1 : S_.BroadcastsInDim S4194304x1x1 (![] : Fin 0 → Fin S4194304x1x1.rank)
  bcast_S1_S1x1x1_2 : S1.BroadcastsInDim S1x1x1 (![2] : Fin 1 → Fin S1x1x1.rank)
  bcast_S1x1x1_S4194304x1x1_0_1_2 : S1x1x1.BroadcastsInDim S4194304x1x1 (![0, 1, 2] : Fin 3 → Fin S4194304x1x1.rank)
  reducesTo_S4194304x1x1_S4194304x1_d2 : S4194304x1x1.ReducesTo [2] S4194304x1
  shapeCasts_S4194304x1_S4194304 : S4194304x1.ShapeCasts S4194304
  bcast_S_S16 : S_.BroadcastsInDim S16 (![] : Fin 0 → Fin S16.rank)
  reducesTo_S4194304_S_d0 : S4194304.ReducesTo [0] S_
  gather_S4194304x64_S4194304x1x1_S4194304x1_n_1_0_0_1_2_11_wf : GatherDims.WF S4194304x64 S4194304x1x1 S4194304x1 [] [1] [0] [1] [0] 2 ![1, 1]
  scatter_S16_S4194304x1_S4194304_n_0_0_1_wf : ScatterDims.WF S16 S4194304x1 S4194304 [] [0] [0] 1

variable [Facts₀]

def gather_S4194304x64_S4194304x1x1_S4194304x1_n_1_0_0_1_2_11 : GatherDims S4194304x64 S4194304x1x1 S4194304x1 where
  offsetDims := []
  collapsedSliceDims := [1]
  operandBatchingDims := [0]
  startIndicesBatchingDims := [0]
  startIndexMap := [1]
  indexVectorDim := 2
  sliceSizes := ![1, 1]
  wf := gather_S4194304x64_S4194304x1x1_S4194304x1_n_1_0_0_1_2_11_wf
def scatter_S16_S4194304x1_S4194304_n_0_0_1 : ScatterDims S16 S4194304x1 S4194304 where
  updateWindowDims := []
  insertedWindowDims := [0]
  scatterDimsToOperandDims := [0]
  indexVectorDim := 1
  wf := scatter_S16_S4194304x1_S4194304_n_0_0_1_wf

class Facts : Prop extends Facts₀ where

variable [Facts]
-- ==== Proof.KPieces.lean ====
/-
  What one run of the kernel body leaves in its two output blocks.

  Each output block is 8 × 16; the body touches only its row 0. With `xo` the block's contents before the body's
  accumulation (the zero block at a core's first point, where the body first stores zeros over the whole block; what
  the point before left, elsewhere), the body leaves `xo` with row 0 replaced by row 0 of `xo` plus a column of the
  point's 16 × 2 matrix product: column 0 into the first output, column 1 into the second.
-/
import proofs.«419858_j69733089018311_3_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Acc

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- A block with its row 0 replaced by the 1 × 16 row `row`. -/
def rowPut (base : Vec F S8x16 .f32) (row : FVec F S1x16 .f32) : Vec F S8x16 .f32 :=
  fun y => if (y 0).val = 0 then row (ix2 (0 : Fin 1) (y 1)) else base y

/-- Row 0 of a block, as a 1 × 16 row. -/
def rowGet (base : Vec F S8x16 .f32) : FVec F S1x16 .f32 :=
  View.ld base (Rect.unit (s := S8x16) ![0, 0] S1x16.size inb_S8x16_S1x16_0_0)

theorem row_emb (y : S8x16.Idx) (h : (y 0).val = 0) :
    y = (Rect.unit (s := S8x16) ![0, 0] ![1, 16] inb_S8x16_S1x16_0_0).emb (ix2 (0 : Fin 1) (y 1)) := by
  funext a
  apply Fin.ext
  match a with
  | ⟨0, _⟩ => show (y 0).val = 0 + 1 * 0; omega
  | ⟨1, _⟩ => show (y 1).val = 0 + 1 * (y 1).val; omega

theorem not_mem_row (y : S8x16.Idx) (h : ¬(y 0).val = 0) :
    y ∉ (Rect.unit (s := S8x16) ![0, 0] ![1, 16] inb_S8x16_S1x16_0_0).set := by
  rw [Rect.mem_set_unit]
  intro hm
  have := (hm 0).2
  have e : (![0, 0] : Fin 2 → Nat) 0 + (![1, 16] : Fin 2 → Nat) 0 = 1 := rfl
  rw [e] at this
  omega

/-- A store of row 0 after a store of the whole block leaves the block with its row 0 replaced. -/
theorem canon_row_whole (w : FVec F S1x16 .f32) (z : Vec F S8x16 .f32) :
    View.canon [(⟨Rect.unit (s := S8x16) ![0, 0] ![1, 16] inb_S8x16_S1x16_0_0, w⟩ : View.Piece (Elt F) S8x16 .f32),
      ⟨Rect.unit (s := S8x16) ![0, 0] S8x16.size inb_S8x16_S8x16_0_0, z⟩] = rowPut z w := by
  funext y
  by_cases h : (y 0).val = 0
  · conv_lhs => rw [row_emb y h]
    rw [View.canon_cons_emb]
    simp only [rowPut, h, if_true]
  · rw [View.canon_cons_of_not_mem (⟨Rect.unit (s := S8x16) ![0, 0] ![1, 16] inb_S8x16_S1x16_0_0, w⟩ : View.Piece (Elt F) S8x16 .f32)
      [(⟨Rect.unit (s := S8x16) ![0, 0] S8x16.size inb_S8x16_S8x16_0_0, z⟩ : View.Piece (Elt F) S8x16 .f32)] (not_mem_row y h),
      View.canon_unit_zero (S := S8x16) hz2 inb_S8x16_S8x16_0_0 z]
    simp only [rowPut, h, if_false]

/-- A load of row 0 after a store of the whole block reads the stored block's row 0. -/
theorem readCov_row_whole (v : View sig .tc .vmem S8x16 .f32) (z : Vec F S8x16 .f32) :
    v.readCov [(⟨Rect.unit (s := S8x16) ![0, 0] S8x16.size inb_S8x16_S8x16_0_0, z⟩ : View.Piece (Elt F) S8x16 .f32)]
      (Rect.unit (s := S8x16) ![0, 0] S1x16.size inb_S8x16_S1x16_0_0).toLoadRect = rowGet z := by
  have hcov : ∀ y : S8x16.Idx, ∃ p ∈ [(⟨Rect.unit (s := S8x16) ![0, 0] S8x16.size inb_S8x16_S8x16_0_0, z⟩ : View.Piece (Elt F) S8x16 .f32)],
      y ∈ p.1.set := fun y =>
    ⟨(⟨Rect.unit (s := S8x16) ![0, 0] S8x16.size inb_S8x16_S8x16_0_0, z⟩ : View.Piece (Elt F) S8x16 .f32),
      List.mem_singleton_self _, View.mem_set_unit_zero (S := S8x16) hz2 inb_S8x16_S8x16_0_0 y⟩
  rw [View.readCov_eq_canon_ld v _ (Rect.unit (s := S8x16) ![0, 0] S1x16.size inb_S8x16_S1x16_0_0) hcov,
    View.canon_unit_zero (S := S8x16) hz2 inb_S8x16_S8x16_0_0 z]
  rfl

/-- A store of row 0 over a whole memref holding `xo` leaves `xo` with its row 0 replaced. -/
theorem read_writes_row (a : Memref sig .tc .vmem S8x16 .f32) (ha : a.IsWhole) (xo : Vec F S8x16 .f32) (w : FVec F S1x16 .f32) :
    a.view.read (Elt F) (a.view.writes (Elt F) (ha.unread xo)
      [(⟨Rect.unit (s := S8x16) ![0, 0] ![1, 16] inb_S8x16_S1x16_0_0, w⟩ : View.Piece (Elt F) S8x16 .f32)]) = rowPut xo w := by
  funext y
  by_cases h : (y 0).val = 0
  · conv_lhs => rw [row_emb y h]
    rw [View.read_writes_cons_emb]
    simp only [rowPut, h, if_true]
  · rw [View.writes_cons, View.writes_nil]
    rw [View.read_slice_write_of_not_mem (v := a.view) (Rect.unit (s := S8x16) ![0, 0] ![1, 16] inb_S8x16_S1x16_0_0) (ha.unread xo) w Finset.univ
      (by rw [Rect.map_emb_univ]; exact not_mem_row y h), ha.read_unread]
    simp only [rowPut, h, if_false]

/-- What the body leaves in the first output block holding `xo`: row 0 of `xo` plus column 0 of the point's product. -/
def step3 (x0 : Vec F S8192x64 .f32) (x1 x2 : Vec F S8192 .i32) (xo : Vec F S8x16 .f32) : Vec F S8x16 .f32 :=
  rowPut xo (k0_pay1 (k0_pay6 x0 x1 x2 (rowGet xo)))

/-- What the body leaves in the second output block holding `xo`: row 0 of `xo` plus column 1 of the point's product. -/
def step4 (x0 : Vec F S8192x64 .f32) (x1 x2 : Vec F S8192 .i32) (xo : Vec F S8x16 .f32) : Vec F S8x16 .f32 :=
  rowPut xo (k0_pay2 (k0_pay5 x0 x1 x2) (rowGet xo))

section Cases

variable (c : Dev nD) (i : grid0.Coords) (a2 : Memref sig .tc .vmem S8192x64 .f32) (h2 : a2.IsWhole)
  (a3 : Memref sig .tc .vmem S8192 .i32) (h3 : a3.IsWhole) (a4 : Memref sig .tc .vmem S8192 .i32) (h4 : a4.IsWhole)
  (a5 : Memref sig .tc .vmem S8x16 .f32) (h5 : a5.IsWhole) (a6 : Memref sig .tc .vmem S8x16 .f32) (h6 : a6.IsWhole)
  (x0 : Vec F S8192x64 .f32) (x1 x2 : Vec F S8192 .i32)

/-- At a core's first point the body zeroes the block and then accumulates into its row 0. -/
theorem out_A_3 (hc : cond0_0 i) :
    out0_A_3 c i a2 h2 a3 h3 a4 h4 a5 h5 a6 h6 hc x0 x1 x2 = step3 x0 x1 x2 k0_pay3 := by
  unfold out0_A_3
  rw [View.read_writes_eq_canon _ _ _ (cover0_A_3 c i a2 h2 a3 h3 a4 h4 a5 h5 a6 h6 hc x0 x1 x2)]
  unfold kernelRun0_A
  dsimp only
  sl_unfold_words
  refine (canon_row_whole _ _).trans ?_
  unfold step3
  simp only [View.readAt_eq_ld, h2.read_unread, h3.read_unread, h4.read_unread, View.ld_unit_zero (S := S8192x64) hz2,
    View.ld_unit_zero (S := S8192) hz1]
  exact congrArg (fun r => rowPut k0_pay3 (k0_pay1 (k0_pay6 x0 x1 x2 r))) (readCov_row_whole a5.view k0_pay3)

theorem out_A_4 (hc : cond0_0 i) :
    out0_A_4 c i a2 h2 a3 h3 a4 h4 a5 h5 a6 h6 hc x0 x1 x2 = step4 x0 x1 x2 k0_pay4 := by
  unfold out0_A_4
  rw [View.read_writes_eq_canon _ _ _ (cover0_A_4 c i a2 h2 a3 h3 a4 h4 a5 h5 a6 h6 hc x0 x1 x2)]
  unfold kernelRun0_A
  dsimp only
  sl_unfold_words
  refine (canon_row_whole _ _).trans ?_
  unfold step4
  simp only [View.readAt_eq_ld, h2.read_unread, h3.read_unread, h4.read_unread, View.ld_unit_zero (S := S8192x64) hz2,
    View.ld_unit_zero (S := S8192) hz1]
  exact congrArg (fun r => rowPut k0_pay4 (k0_pay2 (k0_pay5 x0 x1 x2) r)) (readCov_row_whole a6.view k0_pay4)

/-- At every other point it accumulates into row 0 of what the point before left. -/
theorem out_B_3 (hc : ¬cond0_0 i) (xo3 xo4 : Vec F S8x16 .f32) :
    out0_B_3 c i a2 h2 a3 h3 a4 h4 a5 h5 a6 h6 hc x0 x1 x2 xo3 xo4 = step3 x0 x1 x2 xo3 := by
  unfold out0_B_3
  unfold kernelRun0_B
  dsimp only
  sl_unfold_words
  refine (read_writes_row a5 h5 xo3 _).trans ?_
  unfold step3 rowGet
  simp only [View.readAt_eq_ld, h2.read_unread, h3.read_unread, h4.read_unread, h5.read_unread, View.ld_unit_zero (S := S8192x64) hz2,
    View.ld_unit_zero (S := S8192) hz1]

theorem out_B_4 (hc : ¬cond0_0 i) (xo3 xo4 : Vec F S8x16 .f32) :
    out0_B_4 c i a2 h2 a3 h3 a4 h4 a5 h5 a6 h6 hc x0 x1 x2 xo3 xo4 = step4 x0 x1 x2 xo4 := by
  unfold out0_B_4
  unfold kernelRun0_B
  dsimp only
  sl_unfold_words
  refine (read_writes_row a6 h6 xo4 _).trans ?_
  unfold step4 rowGet
  simp only [View.readAt_eq_ld, h2.read_unread, h3.read_unread, h4.read_unread, h6.read_unread, View.ld_unit_zero (S := S8192x64) hz2,
    View.ld_unit_zero (S := S8192) hz1]

end Cases

end Cert.KernelIdeal.Acc

end
-- ==== Proof.KStep.lean ====
/-
  One accumulation step of the kernel body, read entry by entry over the extended reals: the step leaves every row of
  the block but row 0 as it was, and adds to entry g of row 0 the point's product entry (g, 0) — for the first
  output — or (g, 1) — for the second.
-/
import proofs.«419858_j69733089018311_3_alg».proof.Proof.KPieces
import Idealize.ShloMosaic.PureOps.Ideal.Laws
import Idealize.ShloMosaic.Lib.ValueLayout

noncomputable section

open Idealize.ShloMosaic Idealize.ShloMosaic.TcCoe Idealize.SL.Sem Idealize.ShloMosaic.ValueIdx

namespace Cert.KernelIdeal.Acc

open Cert.KernelIdeal Cert.KernelIdeal.Gen

/-- Row 0 of a block at column g is the block's entry (0, g). -/
theorem rowGet_apply {F : FTy → Type} [FloatOps F] (xo : Vec F S8x16 .f32) (g : Fin 16) :
    rowGet xo (ix2 (0 : Fin 1) g) = xo (ix2 (0 : Fin 8) g) := by
  unfold rowGet
  show xo _ = xo _
  congr 1
  funext a
  apply Fin.ext
  match a with
  | ⟨0, _⟩ => rfl
  | ⟨1, _⟩ => show 0 + 1 * g.val = g.val; omega

/-- A 16 × 1 column cast to a 16-vector reads its entry (g, 0). -/
theorem cast_col (v : FVec Ideal S16x1 .f32) (g : Fin 16) :
    shapeCast S16 v shapeCasts_S16x1_S16 (ix1 g) = v (ix2 g (0 : Fin 1)) :=
  shapeCast_apply v _ _ _ (by
    rw [Shape.rowMajor_val_two, Shape.rowMajor_val_one]
    show g.val * 1 + 0 = g.val
    omega)

/-- Column k of the 16 × 2 product, as a 16 × 1 column. -/
theorem slice_col0 (v : FVec Ideal S16x2 .f32) (g : Fin 16) :
    extractStridedSlice S16x1 ![0, 0] v slices_S16x2_o0_0_S16x1 (ix2 g (0 : Fin 1)) = v (ix2 g (0 : Fin 2)) :=
  extractStridedSlice_apply _ v _ _ _ (fun a => by
    match a with
    | ⟨0, _⟩ => show g.val = 0 + g.val; omega
    | ⟨1, _⟩ => rfl)

theorem slice_col1 (v : FVec Ideal S16x2 .f32) (g : Fin 16) :
    extractStridedSlice S16x1 ![0, 1] v slices_S16x2_o0_1_S16x1 (ix2 g (0 : Fin 1)) = v (ix2 g (1 : Fin 2)) :=
  extractStridedSlice_apply _ v _ _ _ (fun a => by
    match a with
    | ⟨0, _⟩ => show g.val = 0 + g.val; omega
    | ⟨1, _⟩ => rfl)

/-- The first output's step, entry by entry. -/
theorem step3_apply (x0 : Vec Ideal S8192x64 .f32) (x1 x2 : Vec Ideal S8192 .i32) (xo : Vec Ideal S8x16 .f32)
    (r : Fin 8) (g : Fin 16) :
    step3 x0 x1 x2 xo (ix2 r g)
      = if r.val = 0 then xo (ix2 (0 : Fin 8) g) + k0_pay5 (F := Ideal) x0 x1 x2 (ix2 g (0 : Fin 2)) else xo (ix2 r g) := by
  unfold step3 rowPut
  show (if r.val = 0 then _ else _) = _
  split
  · show k0_pay1 _ (ix2 (0 : Fin 1) g) = _
    unfold k0_pay1
    rw [shapeCast_a_1a_apply]
    unfold k0_pay6
    rw [addf_apply, shapeCast_1a_a_apply, cast_col, slice_col0, rowGet_apply]
  · rfl

/-- The second output's step, entry by entry. -/
theorem step4_apply (x0 : Vec Ideal S8192x64 .f32) (x1 x2 : Vec Ideal S8192 .i32) (xo : Vec Ideal S8x16 .f32)
    (r : Fin 8) (g : Fin 16) :
    step4 x0 x1 x2 xo (ix2 r g)
      = if r.val = 0 then xo (ix2 (0 : Fin 8) g) + k0_pay5 (F := Ideal) x0 x1 x2 (ix2 g (1 : Fin 2)) else xo (ix2 r g) := by
  unfold step4 rowPut
  show (if r.val = 0 then _ else _) = _
  split
  · show k0_pay2 _ _ (ix2 (0 : Fin 1) g) = _
    unfold k0_pay2
    rw [shapeCast_a_1a_apply, addf_apply, shapeCast_1a_a_apply, cast_col, slice_col1, rowGet_apply]
  · rfl

/-- The zero blocks a core's first point stores. -/
theorem pay3_apply (y : S8x16.Idx) : k0_pay3 (F := Ideal) y = 0 := by
  unfold k0_pay3
  show Ideal.ofBits .f32 0x00000000#32 = 0
  exact Ideal.ofBits_zero_f32

theorem pay4_apply (y : S8x16.Idx) : k0_pay4 (F := Ideal) y = 0 := by
  unfold k0_pay4
  show Ideal.ofBits .f32 0x00000000#32 = 0
  exact Ideal.ofBits_zero_f32

end Cert.KernelIdeal.Acc

end
-- ==== Proof.KAcc.lean ====
/-
  What the two output blocks hold after each grid point.

  The grid's 512 points run in order; point n belongs to core n / 256 and is that core's step n % 256. A core's first
  point starts both blocks from zero; every point adds the point's product column to row 0. So after point n row 0 of
  the first block holds, at column g, the sum over the core's points so far of their product entries (g, 0) — of the
  entries (g, 1) for the second block — and rows 1 to 7 hold zero.
-/
import proofs.«419858_j69733089018311_3_alg».proof.Proof.KStep

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

section Generic

variable {F : FTy → Type} [FloatOps F]
variable (m : (ℓ : Loc nD τ sig) → Buf (Elt F) ℓ)

/-- The three input blocks of point `t`, at their literal types: 8192 rows of logits, their labels, their group ids. -/
abbrev xblk (c : Dev nD) (t : Fin cfg0.N) : Vec F S8192x64 .f32 := iblk m c 0 t
abbrev tblk (c : Dev nD) (t : Fin cfg0.N) : Vec F S8192 .i32 := iblk m c 1 t
abbrev gblk (c : Dev nD) (t : Fin cfg0.N) : Vec F S8192 .i32 := iblk m c 2 t

/-- At a core's first point both blocks are one step from the zero blocks. -/
theorem outs_A (c : Dev nD) (t : Fin cfg0.N) (h0 : t.val % 256 = 0) :
    outsAt0 m c t.val t.isLt
      = (step3 (xblk m c t) (tblk m c t) (gblk m c t) k0_pay3, step4 (xblk m c t) (tblk m c t) (gblk m c t) k0_pay4) := by
  rw [outsAt0_A m c t h0]
  exact Prod.ext
    (out_A_3 c (grid0.coords t) (ms0_0 t) (hs0_0 t) (ms0_1 t) (hs0_1 t) (ms0_2 t) (hs0_2 t) (ms0_3 t) (hs0_3 t) (ms0_4 t) (hs0_4 t)
      (xblk m c t) (tblk m c t) (gblk m c t) ((hcond0_0 t).mpr h0))
    (out_A_4 c (grid0.coords t) (ms0_0 t) (hs0_0 t) (ms0_1 t) (hs0_1 t) (ms0_2 t) (hs0_2 t) (ms0_3 t) (hs0_3 t) (ms0_4 t) (hs0_4 t)
      (xblk m c t) (tblk m c t) (gblk m c t) ((hcond0_0 t).mpr h0))

/-- At every other point they are one step from what the point before left. -/
theorem outs_B (c : Dev nD) (t : Fin cfg0.N) (h0 : ¬t.val % 256 = 0) :
    outsAt0 m c t.val t.isLt
      = (step3 (xblk m c t) (tblk m c t) (gblk m c t) (outsAt0 m c (t.val - 1) (Nat.lt_of_le_of_lt (Nat.sub_le _ _) t.isLt)).1,
         step4 (xblk m c t) (tblk m c t) (gblk m c t) (outsAt0 m c (t.val - 1) (Nat.lt_of_le_of_lt (Nat.sub_le _ _) t.isLt)).2) := by
  rw [outsAt0_B m c t h0]
  exact Prod.ext
    (out_B_3 c (grid0.coords t) (ms0_0 t) (hs0_0 t) (ms0_1 t) (hs0_1 t) (ms0_2 t) (hs0_2 t) (ms0_3 t) (hs0_3 t) (ms0_4 t) (hs0_4 t)
      (xblk m c t) (tblk m c t) (gblk m c t) (fun h => h0 ((hcond0_0 t).mp h))
      (outsAt0 m c (t.val - 1) (Nat.lt_of_le_of_lt (Nat.sub_le _ _) t.isLt)).1
      (outsAt0 m c (t.val - 1) (Nat.lt_of_le_of_lt (Nat.sub_le _ _) t.isLt)).2)
    (out_B_4 c (grid0.coords t) (ms0_0 t) (hs0_0 t) (ms0_1 t) (hs0_1 t) (ms0_2 t) (hs0_2 t) (ms0_3 t) (hs0_3 t) (ms0_4 t) (hs0_4 t)
      (xblk m c t) (tblk m c t) (gblk m c t) (fun h => h0 ((hcond0_0 t).mp h))
      (outsAt0 m c (t.val - 1) (Nat.lt_of_le_of_lt (Nat.sub_le _ _) t.isLt)).1
      (outsAt0 m c (t.val - 1) (Nat.lt_of_le_of_lt (Nat.sub_le _ _) t.isLt)).2)

end Generic

section AtIdeal

variable (m : (ℓ : Loc nD τ sig) → Buf (Elt Ideal) ℓ)

/-- Entry (g, k) of the product at point `n` (zero past the grid, where it is never used). -/
def prodAt (c : Dev nD) (k : Fin 2) (n : ℕ) (g : Fin 16) : EReal :=
  if h : n < cfg0.N then k0_pay5 (F := Ideal) (xblk m c ⟨n, h⟩) (tblk m c ⟨n, h⟩) (gblk m c ⟨n, h⟩) (ix2 g k) else 0

/-- The running sums: what row 0 of a block holds after point `n`. -/
def runSum (c : Dev nD) (k : Fin 2) (n : ℕ) (g : Fin 16) : EReal :=
  ∑ s ∈ Finset.range (n % 256 + 1), prodAt m c k (n - n % 256 + s) g

theorem runSum_first (c : Dev nD) (k : Fin 2) (n : ℕ) (h : n < cfg0.N) (h0 : n % 256 = 0) (g : Fin 16) :
    runSum m c k n g = k0_pay5 (F := Ideal) (xblk m c ⟨n, h⟩) (tblk m c ⟨n, h⟩) (gblk m c ⟨n, h⟩) (ix2 g k) := by
  unfold runSum
  rw [h0, Finset.sum_range_one, Nat.sub_zero, Nat.add_zero]
  unfold prodAt
  rw [dif_pos h]

theorem runSum_next (c : Dev nD) (k : Fin 2) (n : ℕ) (h : n + 1 < cfg0.N) (h0 : ¬(n + 1) % 256 = 0) (g : Fin 16) :
    runSum m c k (n + 1) g
      = runSum m c k n g + k0_pay5 (F := Ideal) (xblk m c ⟨n + 1, h⟩) (tblk m c ⟨n + 1, h⟩) (gblk m c ⟨n + 1, h⟩) (ix2 g k) := by
  unfold runSum
  have e1 : (n + 1) % 256 = n % 256 + 1 := by omega
  have e2 : n + 1 - (n % 256 + 1) = n - n % 256 := by omega
  rw [e1, e2, Finset.sum_range_succ _ (n % 256 + 1)]
  congr 1
  have e3 : n - n % 256 + (n % 256 + 1) = n + 1 := by omega
  rw [e3]
  unfold prodAt
  rw [dif_pos h]

/-- After point `n`: row 0 of each block is the running sum, the other rows are zero. -/
theorem outs_inv (c : Dev nD) : ∀ (n : ℕ) (h : n < cfg0.N) (r : Fin 8) (g : Fin 16),
    (outsAt0 m c n h).1 (ix2 r g) = (if r.val = 0 then runSum m c 0 n g else 0)
      ∧ (outsAt0 m c n h).2 (ix2 r g) = (if r.val = 0 then runSum m c 1 n g else 0) := by
  intro n
  induction n with
  | zero =>
    intro h r g
    have hA := outs_A m c ⟨0, h⟩ (Nat.zero_mod _)
    have hA' : outsAt0 m c 0 h = _ := hA
    rw [hA']
    dsimp only
    rw [step3_apply, step4_apply, pay3_apply, pay4_apply, pay3_apply, pay4_apply, zero_add, zero_add,
      runSum_first m c 0 0 h (Nat.zero_mod _), runSum_first m c 1 0 h (Nat.zero_mod _)]
    exact ⟨rfl, rfl⟩
  | succ n ih =>
    intro h r g
    by_cases h0 : (n + 1) % 256 = 0
    · have hA : outsAt0 m c (n + 1) h = _ := outs_A m c ⟨n + 1, h⟩ h0
      rw [hA]
      dsimp only
      rw [step3_apply, step4_apply, pay3_apply, pay4_apply, pay3_apply, pay4_apply, zero_add, zero_add,
        runSum_first m c 0 (n + 1) h h0, runSum_first m c 1 (n + 1) h h0]
      exact ⟨rfl, rfl⟩
    · have hB : outsAt0 m c (n + 1) h = _ := outs_B m c ⟨n + 1, h⟩ h0
      rw [hB]
      dsimp only
      rw [step3_apply, step4_apply]
      have hn : n < cfg0.N := Nat.lt_of_succ_lt h
      have i0 := ih hn 0 g
      have ir := ih hn r g
      rw [runSum_next m c 0 n h h0, runSum_next m c 1 n h h0]
      constructor
      · show (if r.val = 0 then (outsAt0 m c n _).1 (ix2 (0 : Fin 8) g) + _ else (outsAt0 m c n _).1 (ix2 r g)) = _
        rw [i0.1, ir.1]
        simp only [Fin.val_zero, if_true]
        by_cases hr : r.val = 0
        · simp only [hr, if_true]
        · simp only [hr, if_false]
      · show (if r.val = 0 then (outsAt0 m c n _).2 (ix2 (0 : Fin 8) g) + _ else (outsAt0 m c n _).2 (ix2 r g)) = _
        rw [i0.2, ir.2]
        simp only [Fin.val_zero, if_true]
        by_cases hr : r.val = 0
        · simp only [hr, if_true]
        · simp only [hr, if_false]

end AtIdeal

end Cert.KernelIdeal.Acc

end
-- ==== Proof.KFinal.lean ====
/-
  The kernel's two result arrays after the grid, and what the host operations after the region make of them.

  Each 16 × 16 result array is two 8 × 16 blocks, block c written back once, after core c's last point: its row 0 then
  holds the core's totals — at column g the sum over the core's 256 points of their product entries — and its other
  rows hold zero.
-/
import proofs.«419858_j69733089018311_3_alg».proof.Proof.KAcc

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable (m : (ℓ : Loc nD τ sig) → Buf (Elt Ideal) ℓ) (ρ : Dev nD → PrngReg)

/-- The result array for product column `k`: row 8·c' holds core c's totals, every other row zero. -/
def outArr (c : Dev nD) (k : Fin 2) : S16x16.Idx → EReal := fun y =>
  if (y 0).val % 8 = 0 then runSum m c k (256 * ((y 0).val / 8) + 255) (y 1) else 0

/-- The output windows' block index at point `t` is the core, `t / 256`; the blocks start at column 0. -/
theorem out_index3 : ∀ t : Fin cfg0.N, win0_3.index t 0 = t.val / 256 ∧ win0_3.index t 1 = 0 :=
  (by decide +kernel : ∀ t : Fin grid0.N, win0_3.index t 0 = t.val / 256 ∧ win0_3.index t 1 = 0)
theorem out_index4 : ∀ t : Fin cfg0.N, win0_4.index t 0 = t.val / 256 ∧ win0_4.index t 1 = 0 :=
  (by decide +kernel : ∀ t : Fin grid0.N, win0_4.index t 0 = t.val / 256 ∧ win0_4.index t 1 = 0)

/-- The result array at an index whose row is 8·q + r (r < 8) and whose column is g. -/
theorem outArr_apply_of (c : Dev nD) (k : Fin 2) (z : S16x16.Idx) (q r : ℕ) (hz : (z 0).val = 8 * q + r) (hr : r < 8)
    (g : Fin 16) (hg : (z 1).val = g.val) :
    outArr m c k z = if r = 0 then runSum m c k (256 * q + 255) g else 0 := by
  unfold outArr
  have e1 : (z 0).val % 8 = r := by omega
  have e2 : (z 0).val / 8 = q := by omega
  have e3 : z 1 = g := Fin.ext hg
  rw [e1, e2, e3]

theorem flushed_eq3 (c : Dev nD) (t : Fin cfg0.N) (hf : (cfg0.win 3).flush t = true) :
    (dats m 0 c).flushed 3 t = ((cfg0.win 3).blk t).view.read (Elt Ideal) (outArr m c 0) := by
  have hN : cfg0.N = 512 := N_0
  have h255 : t.val % 256 = 255 := (flush0_3 t).mp hf
  show (cfg0.win 3).cut (grid0.coords t) ((dats m 0 c).after 3 t) = _
  rw [after0_3]
  funext y
  rw [View.read_apply]
  show (outsAt0 m c t.val t.isLt).1 (y : S8x16.Idx) = outArr m c 0 (((cfg0.win 3).blk t).view.emb y)
  have hr : ((y : S8x16.Idx) 0).val < 8 := ((y : S8x16.Idx) 0).isLt
  have et : 256 * (t.val / 256) + 255 = t.val := by omega
  refine (congrArg (outsAt0 m c t.val t.isLt).1 (eq_ix2 (y : S8x16.Idx))).trans ?_
  refine ((outs_inv m c t.val t.isLt ((y : S8x16.Idx) 0) ((y : S8x16.Idx) 1)).1).trans ?_
  refine Eq.trans ?_ (outArr_apply_of m c 0 (((cfg0.win 3).blk t).view.emb y) (t.val / 256) ((y : S8x16.Idx) 0).val ?_ hr
    ((y : S8x16.Idx) 1) ?_).symm
  · rw [et]
  · show win0_3.index t 0 * 8 + 1 * ((y : S8x16.Idx) 0).val = _
    rw [(out_index3 t).1]; omega
  · show win0_3.index t 1 * 16 + 1 * ((y : S8x16.Idx) 1).val = _
    rw [(out_index3 t).2]; omega

theorem flushed_eq4 (c : Dev nD) (t : Fin cfg0.N) (hf : (cfg0.win 4).flush t = true) :
    (dats m 0 c).flushed 4 t = ((cfg0.win 4).blk t).view.read (Elt Ideal) (outArr m c 1) := by
  have hN : cfg0.N = 512 := N_0
  have h255 : t.val % 256 = 255 := (flush0_4 t).mp hf
  show (cfg0.win 4).cut (grid0.coords t) ((dats m 0 c).after 4 t) = _
  rw [after0_4]
  funext y
  rw [View.read_apply]
  show (outsAt0 m c t.val t.isLt).2 (y : S8x16.Idx) = outArr m c 1 (((cfg0.win 4).blk t).view.emb y)
  have hr : ((y : S8x16.Idx) 0).val < 8 := ((y : S8x16.Idx) 0).isLt
  have et : 256 * (t.val / 256) + 255 = t.val := by omega
  refine (congrArg (outsAt0 m c t.val t.isLt).2 (eq_ix2 (y : S8x16.Idx))).trans ?_
  refine ((outs_inv m c t.val t.isLt ((y : S8x16.Idx) 0) ((y : S8x16.Idx) 1)).2).trans ?_
  refine Eq.trans ?_ (outArr_apply_of m c 1 (((cfg0.win 4).blk t).view.emb y) (t.val / 256) ((y : S8x16.Idx) 0).val ?_ hr
    ((y : S8x16.Idx) 1) ?_).symm
  · rw [et]
  · show win0_4.index t 0 * 8 + 1 * ((y : S8x16.Idx) 0).val = _
    rw [(out_index4 t).1]; omega
  · show win0_4.index t 1 * 16 + 1 * ((y : S8x16.Idx) 1).val = _
    rw [(out_index4 t).2]; omega

/-- Every row of a result array lies in the block of its core's last point, so the arrays end holding the cores' totals. -/
theorem final3 (c : Dev nD) : (dats m 0 c).arrAt 3 cfg0.N = outArr m c 0 :=
  (dats m 0 c).arrAt_eq_of_cover 3 (outArr m c 0) (flushed_eq3 m c) fun i => by
    have hN : cfg0.N = 512 := N_0
    have h0 : (i 0 : Nat) < 16 := (i 0).isLt
    have h1 : (i 1 : Nat) < 16 := (i 1).isLt
    have ht : 256 * ((i 0 : Nat) / 8) + 255 < cfg0.N := by omega
    refine ⟨⟨256 * ((i 0 : Nat) / 8) + 255, ht⟩, (flush0_3 _).mpr (by show (256 * ((i 0 : Nat) / 8) + 255) % 256 = 255; omega), ?_⟩
    show i ∈ ((View.whole main_v0_0).slice (win0_3.rect ⟨256 * ((i 0 : Nat) / 8) + 255, ht⟩)).set
    rw [View.set_slice_whole, Rect.mem_set_unit]
    intro a
    match a with
    | ⟨0, _⟩ =>
      show win0_3.index ⟨256 * ((i 0 : Nat) / 8) + 255, ht⟩ 0 * 8 ≤ (i 0 : Nat)
        ∧ (i 0 : Nat) < win0_3.index ⟨256 * ((i 0 : Nat) / 8) + 255, ht⟩ 0 * 8 + 8
      rw [(out_index3 ⟨256 * ((i 0 : Nat) / 8) + 255, ht⟩).1]
      show (256 * ((i 0 : Nat) / 8) + 255) / 256 * 8 ≤ (i 0 : Nat) ∧ (i 0 : Nat) < (256 * ((i 0 : Nat) / 8) + 255) / 256 * 8 + 8
      omega
    | ⟨1, _⟩ =>
      show win0_3.index ⟨256 * ((i 0 : Nat) / 8) + 255, ht⟩ 1 * 16 ≤ (i 1 : Nat)
        ∧ (i 1 : Nat) < win0_3.index ⟨256 * ((i 0 : Nat) / 8) + 255, ht⟩ 1 * 16 + 16
      rw [(out_index3 ⟨256 * ((i 0 : Nat) / 8) + 255, ht⟩).2]
      omega

theorem final4 (c : Dev nD) : (dats m 0 c).arrAt 4 cfg0.N = outArr m c 1 :=
  (dats m 0 c).arrAt_eq_of_cover 4 (outArr m c 1) (flushed_eq4 m c) fun i => by
    have hN : cfg0.N = 512 := N_0
    have h0 : (i 0 : Nat) < 16 := (i 0).isLt
    have h1 : (i 1 : Nat) < 16 := (i 1).isLt
    have ht : 256 * ((i 0 : Nat) / 8) + 255 < cfg0.N := by omega
    refine ⟨⟨256 * ((i 0 : Nat) / 8) + 255, ht⟩, (flush0_4 _).mpr (by show (256 * ((i 0 : Nat) / 8) + 255) % 256 = 255; omega), ?_⟩
    show i ∈ ((View.whole main_v0_1).slice (win0_4.rect ⟨256 * ((i 0 : Nat) / 8) + 255, ht⟩)).set
    rw [View.set_slice_whole, Rect.mem_set_unit]
    intro a
    match a with
    | ⟨0, _⟩ =>
      show win0_4.index ⟨256 * ((i 0 : Nat) / 8) + 255, ht⟩ 0 * 8 ≤ (i 0 : Nat)
        ∧ (i 0 : Nat) < win0_4.index ⟨256 * ((i 0 : Nat) / 8) + 255, ht⟩ 0 * 8 + 8
      rw [(out_index4 ⟨256 * ((i 0 : Nat) / 8) + 255, ht⟩).1]
      show (256 * ((i 0 : Nat) / 8) + 255) / 256 * 8 ≤ (i 0 : Nat) ∧ (i 0 : Nat) < (256 * ((i 0 : Nat) / 8) + 255) / 256 * 8 + 8
      omega
    | ⟨1, _⟩ =>
      show win0_4.index ⟨256 * ((i 0 : Nat) / 8) + 255, ht⟩ 1 * 16 ≤ (i 1 : Nat)
        ∧ (i 1 : Nat) < win0_4.index ⟨256 * ((i 0 : Nat) / 8) + 255, ht⟩ 1 * 16 + 16
      rw [(out_index4 ⟨256 * ((i 0 : Nat) / 8) + 255, ht⟩).2]
      omega

/-! ## The host operations after the region -/

/-- The sum of a 16 × 16 result array over its 16 rows (the host reshapes it to 2 × 8 × 16 and sums the two leading axes). -/
def colSum (A : S16x16.Idx → EReal) : (⟨S16, .f32⟩ : BufTy).Contents (Elt Ideal) :=
  Host.reduceAdd (shapeCast S2x8x16 A shapeCasts_S16x16_S2x8x16) (constant (F := Ideal) S_ .f32 0x00000000#32)
    reducesTo_S2x8x16_S16_d0_1 h_S_

/-- After the region the two result arrays, read as the host operations read them, hold the cores' totals. -/
theorem arr3 (c : Dev nD) :
    Pipeline.withArrays (cfgs 0).spec c (V0 m c) (fun w => (dats m 0 c).arrAt w (cfgs 0).N) (Proc.devRef .tc main_v0_0)
      = outArr m c 0 :=
  (Pipeline.withArrays_arr spec0 launch0.win.arr_inj c _ _ 3).trans (final3 m c)

theorem arr4 (c : Dev nD) :
    Pipeline.withArrays (cfgs 0).spec c (V0 m c) (fun w => (dats m 0 c).arrAt w (cfgs 0).N) (Proc.devRef .tc main_v0_1)
      = outArr m c 1 :=
  (Pipeline.withArrays_arr spec0 launch0.win.arr_inj c _ _ 4).trans (final4 m c)

/-- The counts: the second array's column sums. -/
def cntK (c : Dev nD) : (⟨S16, .f32⟩ : BufTy).Contents (Elt Ideal) := colSum (outArr m c 1)
/-- The loss sums: the first array's column sums. -/
def sumK (c : Dev nD) : (⟨S16, .f32⟩ : BufTy).Contents (Elt Ideal) := colSum (outArr m c 0)

set_option maxRecDepth 8192 in
theorem tail_v4 (c : Dev nD) :
    Pipeline.afterTail₀ cfgs (dats m) 0 (V0 m) [hostOps1, hostOps1_1, hostOps1_2] c main_v4 = cntK m c := by
  unfold Pipeline.afterTail₀
  simp only [hostOps1, hostOps1_1, hostOps1_2, List.flatten_cons, List.flatten_nil, List.append_nil, List.cons_append,
    List.nil_append]
  after_results
  rw [arr4]
  rfl

set_option maxRecDepth 8192 in
theorem tail_v10 (c : Dev nD) :
    Pipeline.afterTail₀ cfgs (dats m) 0 (V0 m) [hostOps1, hostOps1_1, hostOps1_2] c main_v10
      = select (cmpf (F := Ideal) .ogt (cntK m c) (broadcastInDim S16 ![] bcast_S_S16 (constant (F := Ideal) S_ .f32 0x00000000#32)))
          (Host.divf (sumK m c) (maximumf (cntK m c) (broadcastInDim S16 ![] bcast_S_S16 (constant (F := Ideal) S_ .f32 0x3F800000#32))))
          (broadcastInDim S16 ![] bcast_S_S16 (id (constant (F := Ideal) S_ .f32 0x00000000#32))) := by
  unfold Pipeline.afterTail₀
  simp only [hostOps1, hostOps1_1, hostOps1_2, List.flatten_cons, List.flatten_nil, List.append_nil, List.cons_append,
    List.nil_append]
  after_results
  rw [arr4, arr3]
  rfl

set_option maxRecDepth 8192 in
theorem tail_v12 (c : Dev nD) :
    Pipeline.afterTail₀ cfgs (dats m) 0 (V0 m) [hostOps1, hostOps1_1, hostOps1_2] c main_v12
      = Host.divf (Host.reduceAdd (sumK m c) (constant (F := Ideal) S_ .f32 0x00000000#32) reducesTo_S16_S_d0 h_S_)
          (constant (F := Ideal) S_ .f32 0x4A800000#32) := by
  unfold Pipeline.afterTail₀
  simp only [hostOps1, hostOps1_1, hostOps1_2, List.flatten_cons, List.flatten_nil, List.append_nil, List.cons_append,
    List.nil_append]
  after_results
  rw [arr3]
  rfl

end Cert.KernelIdeal.Acc

end
-- ==== Proof.KRun.lean ====
/-
  The idealized kernel's run, read: every weakly fair execution terminates with the three results at the host
  operations' values of the two result arrays — the counts (the second array's column sums), the masked quotient of the
  loss sums by the counts, and the sum of the loss sums over the groups divided by the number of samples — and the
  three arguments unchanged.
-/
import proofs.«419858_j69733089018311_3_alg».proof.Proof.KFinal

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable (m : (ℓ : Loc nD τ sig) → Buf (Elt Ideal) ℓ) (ρ : Dev nD → PrngReg)

/-- The per-group mean loss: the loss sum over the count where the count is positive, zero elsewhere. -/
def meanK (c : Dev nD) : (⟨S16, .f32⟩ : BufTy).Contents (Elt Ideal) :=
  select (cmpf (F := Ideal) .ogt (cntK m c) (broadcastInDim S16 ![] bcast_S_S16 (constant (F := Ideal) S_ .f32 0x00000000#32)))
    (Host.divf (sumK m c) (maximumf (cntK m c) (broadcastInDim S16 ![] bcast_S_S16 (constant (F := Ideal) S_ .f32 0x3F800000#32))))
    (broadcastInDim S16 ![] bcast_S_S16 (id (constant (F := Ideal) S_ .f32 0x00000000#32)))

/-- The overall loss: the loss sums added over the groups, divided by the number of samples. -/
def lossK (c : Dev nD) : (⟨S_, .f32⟩ : BufTy).Contents (Elt Ideal) :=
  Host.divf (Host.reduceAdd (sumK m c) (constant (F := Ideal) S_ .f32 0x00000000#32) reducesTo_S16_S_d0 h_S_)
    (constant (F := Ideal) S_ .f32 0x4A800000#32)

theorem run : θ_run defs (onTc (τ := τ) (main (F := Ideal))) ⟨m, fun _ => 0, ρ⟩ fun r => ∀ c : Dev nD,
      r.2.mem ((c.tc : Thread nD τ).loc main_v12) = lossK m c
      ∧ r.2.mem ((c.tc : Thread nD τ).loc main_v10) = meanK m c
      ∧ r.2.mem ((c.tc : Thread nD τ).loc main_v4) = cntK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v12 (Pipeline.mem_restRefs_of main_v12 rfl (by decide))).trans (tail_v12 m c),
      ((h c).2 main_v10 (Pipeline.mem_restRefs_of main_v10 rfl (by decide))).trans (tail_v10 m c),
      ((h c).2 main_v4 (Pipeline.mem_restRefs_of main_v4 rfl (by decide))).trans (tail_v4 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Acc

end
-- ==== Proof.KBridge.lean ====
/-
  The kernel's group sums and counts as sums over the grid's points.

  The host sums each 16 × 16 result array over its rows. Row 8·c' holds core c's totals — the sum of the product entries
  over the core's 256 points — and every other row is zero, so a column's sum over the 16 rows is the sum of the product
  entries over all 512 points.
-/
import proofs.«419858_j69733089018311_3_alg».proof.Proof.KFinal

noncomputable section

open Idealize.ShloMosaic Idealize.ShloMosaic.TcCoe Idealize.SL.Sem Idealize.ShloMosaic.ValueIdx

namespace Cert.KernelIdeal.Acc

open Cert.KernelIdeal Cert.KernelIdeal.Gen

/-- The indices of the 2 × 8 × 16 array that the row sum reduces to column g: every (c', r, g). -/
def rowsEmb (g : Fin 16) : Fin 2 × Fin 8 ↪ S2x8x16.Idx :=
  ⟨fun p => ix3 p.1 p.2 g, fun p q h => by
    have h0 := congrFun h 0
    have h1 := congrFun h 1
    exact Prod.ext h0 h1⟩

theorem drop_ix3 (c' : Fin 2) (r : Fin 8) (g : Fin 16) :
    reducesTo_S2x8x16_S16_d0_1.drop (ix3 c' r g) = ix1 g := by
  funext b
  match b with
  | ⟨0, _⟩ => rfl

theorem eq_ix3_of_drop (i : S2x8x16.Idx) (g : Fin 16) (h : reducesTo_S2x8x16_S16_d0_1.drop i = ix1 g) :
    i = ix3 (i 0) (i 1) g := by
  have h2 : i 2 = g := congrFun h 0
  rw [← h2]
  exact eq_ix3 i

theorem filter_rows (g : Fin 16) :
    Finset.univ.filter (fun i : S2x8x16.Idx => reducesTo_S2x8x16_S16_d0_1.drop i = ix1 g) = Finset.univ.map (rowsEmb g) := by
  ext i
  simp only [Finset.mem_filter, Finset.mem_univ, true_and, Finset.mem_map, rowsEmb, Function.Embedding.coeFn_mk, Prod.exists]
  exact ⟨fun h => ⟨i 0, i 1, (eq_ix3_of_drop i g h).symm⟩, fun ⟨c', r, e⟩ => e ▸ drop_ix3 c' r g⟩

/-- The 16 × 16 array reshaped to 2 × 8 × 16 reads, at (c', r, g), its entry (8·c' + r, g). -/
theorem reshape_apply (A : S16x16.Idx → EReal) (c' : Fin 2) (r : Fin 8) (g : Fin 16) :
    shapeCast S2x8x16 A shapeCasts_S16x16_S2x8x16 (ix3 c' r g) = A (ix2 ⟨8 * c'.val + r.val, by omega⟩ g) :=
  shapeCast_apply A _ _ _ (by
    rw [Shape.rowMajor_val_two, Shape.rowMajor_val_three]
    show (8 * c'.val + r.val) * 16 + g.val = (c'.val * 8 + r.val) * 16 + g.val
    omega)

/-- A column's sum over the 16 rows, core by core and row by row. -/
theorem colSum_apply (A : S16x16.Idx → EReal) (g : Fin 16) :
    colSum A (ix1 g) = ∑ c' : Fin 2, ∑ r : Fin 8, A (ix2 ⟨8 * c'.val + r.val, by omega⟩ g) := by
  unfold colSum
  show Ideal.hostReduceAdd reducesTo_S2x8x16_S16_d0_1 _ (Ideal.ofBits .f32 0x00000000#32) (ix1 g) = _
  unfold Ideal.hostReduceAdd
  rw [Ideal.ofBits_zero_f32, zero_add, filter_rows, Finset.sum_map, Fintype.sum_prod_type]
  refine Finset.sum_congr rfl fun c' _ => Finset.sum_congr rfl fun r _ => ?_
  exact reshape_apply A c' r g

variable (m : (ℓ : Loc nD τ sig) → Buf (Elt Ideal) ℓ)

/-- A core's running sum at its last point is the sum of its 256 points' product entries. -/
theorem runSum_last (c : Dev nD) (k : Fin 2) (q : ℕ) (g : Fin 16) :
    runSum m c k (256 * q + 255) g = ∑ s ∈ Finset.range 256, prodAt m c k (256 * q + s) g := by
  unfold runSum
  have e1 : (256 * q + 255) % 256 = 255 := by omega
  have e2 : 256 * q + 255 - 255 = 256 * q := by omega
  rw [e1, e2]

/-- A result array's column sum is the sum of the product entries over all 512 points. -/
theorem colSum_outArr (c : Dev nD) (k : Fin 2) (g : Fin 16) :
    colSum (outArr m c k) (ix1 g) = ∑ n ∈ Finset.range 512, prodAt m c k n g := by
  rw [colSum_apply]
  have row : ∀ (c' : Fin 2) (r : Fin 8), outArr m c k (ix2 ⟨8 * c'.val + r.val, by omega⟩ g)
      = if r.val = 0 then runSum m c k (256 * c'.val + 255) g else 0 := fun c' r =>
    outArr_apply_of m c k _ c'.val r.val rfl r.isLt g rfl
  simp only [row]
  have inner : ∀ c' : Fin 2, (∑ r : Fin 8, if r.val = 0 then runSum m c k (256 * c'.val + 255) g else 0)
      = runSum m c k (256 * c'.val + 255) g := fun c' => by
    rw [Finset.sum_eq_single (0 : Fin 8)]
    · simp only [Fin.val_zero, if_true]
    · intro r _ hr
      have : r.val ≠ 0 := fun h => hr (Fin.ext h)
      simp only [this, if_false]
    · intro h; exact absurd (Finset.mem_univ _) h
  simp only [inner]
  rw [Fin.sum_univ_two]
  simp only [Fin.val_zero, Fin.val_one, runSum_last]
  rw [show (512 : ℕ) = 256 + 256 from rfl, Finset.sum_range_add]
  simp only [Nat.mul_zero, Nat.zero_add, Nat.mul_one]

theorem sumK_apply (c : Dev nD) (g : Fin 16) : sumK m c (ix1 g) = ∑ n ∈ Finset.range 512, prodAt m c 0 n g :=
  colSum_outArr m c 0 g

theorem cntK_apply (c : Dev nD) (g : Fin 16) : cntK m c (ix1 g) = ∑ n ∈ Finset.range 512, prodAt m c 1 n g :=
  colSum_outArr m c 1 g

end Cert.KernelIdeal.Acc

end
-- ==== Proof.Spec.lean ====
/-
  The mathematics both programs compute, stated once over the extended reals.

  A row of 64 logits `x` and a label `t` have the cross-entropy
      rowLoss x t = log (∑ₖ exp (xₖ − M)) + M − x_t,        M = maxₖ xₖ,
  the label's logit picked out by a sum against the indicator of `k = t`. A sample whose group word is `w`
  belongs to group `g` when `w` is the 32-bit word of `g`; `hot g w` is that indicator as an extended real.
  Over all 4194304 samples a group's loss sum and its count are the sums of the per-sample losses, resp. of ones,
  against the indicator.
-/
import Idealize.ShloMosaic.PureOps.Ideal
import Idealize.ShloMosaic.Lib.ValueIdx

noncomputable section

namespace GroupLoss

open Idealize.ShloMosaic

/-- The maximum of a row, taken from −∞. -/
def rowMax (x : Fin 64 → EReal) : EReal :=
  (Finset.univ : Finset (Fin 64)).fold max (Ideal.ofBits .f32 0xFF800000#32) x

/-- The label's logit: the sum of the row against the indicator of the label's column. -/
def picked (x : Fin 64 → EReal) (t : BitVec 32) : EReal :=
  ∑ k : Fin 64, if BitVec.ofNat 32 k.val = t then x k else 0

/-- The cross-entropy of one row against its label, in the shifted log-sum-exp form. -/
def rowLoss (x : Fin 64 → EReal) (t : BitVec 32) : EReal :=
  (Ideal.log (∑ k : Fin 64, Ideal.exp (x k - rowMax x)) + rowMax x) - picked x t

/-- The indicator that a sample whose group word is `w` belongs to group `g`. -/
def hot (g : Fin 16) (w : BitVec 32) : EReal := if BitVec.ofNat 32 g.val = w then 1 else 0

/-- Group `g`'s sum of a per-sample quantity `p` over samples with group words `gr`. -/
def groupSum (gr : Fin 4194304 → BitVec 32) (p : Fin 4194304 → EReal) (g : Fin 16) : EReal :=
  ∑ b : Fin 4194304, hot g (gr b) * p b

end GroupLoss

end
-- ==== Proof.KPay.lean ====
/-
  The kernel body's arithmetic at one grid point, read at an index over the extended reals.

  The body's one non-trivial payload is the [16, 2] matrix product of the one-hot group matrix (8192 × 16) with the
  8192 × 2 matrix whose columns are the per-sample cross-entropy and the constant one: entry (g, 0) is the sum, over the
  block's samples in group g, of their losses, and entry (g, 1) the number of such samples.
-/
import proofs.«419858_j69733089018311_3_alg».proof.Proof.Gen.KernelIdeal.Skeleton
import proofs.«419858_j69733089018311_3_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Pay

open Idealize.ShloMosaic Idealize.ShloMosaic.ValueIdx Cert.KernelIdeal Cert.KernelIdeal.Gen

/-- The left operand's index at output (g, k) and contracted sample b is (b, g). -/
theorem dot_lhs (g : Fin 16) (k : Fin 2) (b : Fin 8192) :
    dot_S8192x16_S8192x2_S16x2_0_0_1_1_n_n.lhsIdx (ix2 g k)
      ((contrEquiv1 dot_S8192x16_S8192x2_S16x2_0_0_1_1_n_n 8192 rfl rfl).symm b) = ix2 b g := by
  have c2 := contrEquiv1_symm_val dot_S8192x16_S8192x2_S16x2_0_0_1_1_n_n 8192 rfl rfl b
  funext ax; apply Fin.ext
  match ax with
  | ⟨0, _⟩ => simp [DotDims.lhsIdx, dot_S8192x16_S8192x2_S16x2_0_0_1_1_n_n]; exact c2
  | ⟨1, _⟩ => simp [DotDims.lhsIdx, dot_S8192x16_S8192x2_S16x2_0_0_1_1_n_n]; rfl

/-- The right operand's index at output (g, k) and contracted sample b is (b, k). -/
theorem dot_rhs (g : Fin 16) (k : Fin 2) (b : Fin 8192) :
    dot_S8192x16_S8192x2_S16x2_0_0_1_1_n_n.rhsIdx (ix2 g k)
      ((contrEquiv1 dot_S8192x16_S8192x2_S16x2_0_0_1_1_n_n 8192 rfl rfl).symm b) = ix2 b k := by
  have c2 := contrEquiv1_symm_val dot_S8192x16_S8192x2_S16x2_0_0_1_1_n_n 8192 rfl rfl b
  funext ax; apply Fin.ext
  match ax with
  | ⟨0, _⟩ => simp [DotDims.rhsIdx, dot_S8192x16_S8192x2_S16x2_0_0_1_1_n_n]; exact c2
  | ⟨1, _⟩ => simp [DotDims.rhsIdx, dot_S8192x16_S8192x2_S16x2_0_0_1_1_n_n]; rfl

/-- A vector of length a viewed as an a × 1 column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 column broadcast along its unit axis to a × b reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-bit equality test of a word with itself is the bit 1 … -/
theorem cmpi_eq_self (u : BitVec 32) : IntOp.cmpi .eq u u = 1#1 := by simp [IntOp.cmpi]

/-- … and of two distinct words the bit 0. -/
theorem cmpi_eq_of_ne {u w : BitVec 32} (h : ¬u = w) : IntOp.cmpi .eq u w = 0#1 := by
  show BitVec.ofBool (u == w) = 0#1
  rw [beq_eq_false_iff_ne.mpr h]; rfl

/-- The one-bit equality test of two words, widened to a word and read as a signed integer, is the 0/1 indicator. -/
theorem sitofp_eq_bit (u w : BitVec 32) :
    (((BitVec.setWidth 32 (IntOp.cmpi .eq u w)).toInt : ℝ) : EReal) = if u = w then 1 else 0 := by
  by_cases h : u = w
  · subst h
    have h2 : (BitVec.setWidth 32 1#1).toInt = 1 := by decide
    rw [cmpi_eq_self, if_pos rfl, h2]; simp
  · have h2 : (BitVec.setWidth 32 0#1).toInt = 0 := by decide
    rw [cmpi_eq_of_ne h, if_neg h, h2]; simp

/-- A select on the equality test of two words is the `if` on their equality. -/
theorem select_eq_bit {α : Type} (u w : BitVec 32) (A B : α) :
    Scalar.select (IntOp.cmpi .eq u w) A B = if u = w then A else B := by
  by_cases h : u = w
  · subst h; rw [cmpi_eq_self, select_one, if_pos rfl]
  · rw [cmpi_eq_of_ne h, select_zero, if_neg h]

/-- The group one-hot at (b, g): the indicator that sample b's group word is g. -/
theorem hot_apply (x2 : Vec Ideal S8192 .i32) (b : Fin 8192) (g : Fin 16) :
    (truncf .bf16
        (sitofp .f32
          (extui 32
            (cmpi .eq (iota .tc S8192x16 32 [1] iota_S8192x16_d1_w32)
              (broadcastTo S8192x16 (shapeCast S8192x1 x2 shapeCasts_S8192_S8192x1) broadcasts_S8192x1_S8192x16))
            natLt_1_32))
        bitsLt_bf16_f32 : FVec Ideal S8192x16 .bf16) (ix2 b g) = GroupLoss.hot g (x2 (ix1 b)) := by
  rw [truncf_apply, sitofp_apply, extui_apply]
  show FloatOps.sitofp .f32 ((IntOp.cmpi .eq (iota .tc S8192x16 32 [1] iota_S8192x16_d1_w32 (ix2 b g))
      (broadcastTo S8192x16 (shapeCast S8192x1 x2 shapeCasts_S8192_S8192x1) broadcasts_S8192x1_S8192x16 (ix2 b g))).setWidth 32) = _
  rw [iota_single_apply, broadcastTo_a1_ab_apply, shapeCast_a_a1_apply]
  exact sitofp_eq_bit (BitVec.ofNat 32 g.val) (x2 (ix1 b))

/-- The index a row reduction reads at row b and column j is (b, j). -/
theorem lift_row (h : S8192x64.Reduces [1] S8192) (b : Fin 8192) (j : Fin 64) : h.lift (ix1 b) j = ix2 b j := by
  funext ax; apply Fin.ext
  match ax with
  | ⟨0, _⟩ => rfl
  | ⟨1, _⟩ => rfl

/-- A row sum at row b is the sum over the row's 64 columns. -/
theorem rowSum_apply (v : FVec Ideal S8192x64 .f32) (h : S8192x64.Reduces [1] S8192) (hφ : FKind.Formats .f32)
    (hacc : (0x00000000#32 : BitVec 32) = FKind.add.neutral .f32 hφ) (b : Fin 8192) :
    multiReduction .add [1] S8192 v 0x00000000#32 h hφ hacc (ix1 b) = ∑ j : Fin 64, v (ix2 b j) := by
  rw [Ideal.multiReduction_add_single]
  show ∑ j : Fin 64, v (h.lift (ix1 b) j) = _
  exact Finset.sum_congr rfl fun j _ => congrArg v (lift_row h b j)

/-- A row maximum from −∞ at row b is the row's maximum. -/
theorem rowMax_apply (v : FVec Ideal S8192x64 .f32) (h : S8192x64.Reduces [1] S8192) (hφ : FKind.Formats .f32)
    (hacc : (0xFF800000#32 : BitVec 32) = FKind.maximumf.neutral .f32 hφ) (b : Fin 8192) :
    multiReduction .maximumf [1] S8192 v 0xFF800000#32 h hφ hacc (ix1 b) = GroupLoss.rowMax fun j => v (ix2 b j) := by
  rw [Ideal.multiReduction_maximumf_single]
  have e : (v ∘ h.lift (ix1 b)) = fun j : Fin 64 => v (ix2 b j) :=
    funext fun j : Fin 64 => congrArg v (lift_row h b j)
  show (Finset.univ : Finset (Fin 64)).fold max (Ideal.ofBits .f32 0xFF800000#32) (v ∘ h.lift (ix1 b)) = _
  rw [e]
  rfl

/-- The label mask's select at (b, j): the logit where column j is the label's, else zero. -/
theorem sel_apply (x0 : Vec Ideal S8192x64 .f32) (x1 : Vec Ideal S8192 .i32) (b : Fin 8192) (j : Fin 64) :
    (select
        (cmpi .eq (iota .tc S8192x64 32 [1] iota_S8192x64_d1_w32)
          (broadcastTo S8192x64 (shapeCast S8192x1 x1 shapeCasts_S8192_S8192x1) broadcasts_S8192x1_S8192x64))
        x0 (broadcast S8192x64 (FloatOps.ofBits (F := Ideal) .f32 0#32)) : Vec Ideal S8192x64 .f32) (ix2 b j)
      = if BitVec.ofNat 32 j.val = x1 (ix1 b) then x0 (ix2 b j) else 0 := by
  rw [select_apply, broadcast_apply]
  show Scalar.select (IntOp.cmpi .eq (iota .tc S8192x64 32 [1] iota_S8192x64_d1_w32 (ix2 b j))
      (broadcastTo S8192x64 (shapeCast S8192x1 x1 shapeCasts_S8192_S8192x1) broadcasts_S8192x1_S8192x64 (ix2 b j))) _ _ = _
  rw [iota_single_apply, broadcastTo_a1_ab_apply, shapeCast_a_a1_apply]
  refine (select_eq_bit (BitVec.ofNat 32 j.val) (x1 (ix1 b)) _ _).trans ?_
  show (if BitVec.ofNat 32 j.val = x1 (ix1 b) then x0 (ix2 b j) else Ideal.ofBits .f32 0x00000000#32) = _
  rw [Ideal.ofBits_zero_f32]

/-- The shifted exponential at (b, j). -/
theorem expTerm_apply (x0 : Vec Ideal S8192x64 .f32) (M : FVec Ideal S8192 .f32) (b : Fin 8192) (j : Fin 64) :
    (exp (subf x0 (broadcastTo S8192x64 (shapeCast S8192x1 M shapeCasts_S8192_S8192x1) broadcasts_S8192x1_S8192x64))
        : FVec Ideal S8192x64 .f32) (ix2 b j) = Ideal.exp (x0 (ix2 b j) - M (ix1 b)) := by
  show FloatOps.exp (subf x0 (broadcastTo S8192x64 (shapeCast S8192x1 M shapeCasts_S8192_S8192x1) broadcasts_S8192x1_S8192x64) (ix2 b j)) = _
  rw [subf_apply, broadcastTo_a1_ab_apply, shapeCast_a_a1_apply]
  rfl

/-- Two columns set side by side read, at (b, k), the first at row b when k = 0 and the second otherwise. -/
theorem concat_cols_apply {α : Type} (c0 c1 : S8192x1.Idx → α) (h : Shape.Concatenates [S8192x1, S8192x1] S8192x2 1)
    (b : Fin 8192) (k : Fin 2) :
    concatenate S8192x2 1 [⟨S8192x1, c0⟩, ⟨S8192x1, c1⟩] h (ix2 b k)
      = if k = 0 then c0 (ix2 b (0 : Fin 1)) else c1 (ix2 b (0 : Fin 1)) := by
  match k with
  | 0 =>
    rw [if_pos rfl]
    exact concatenate_pair_apply_left 1 c0 c1 h _ rfl (ix2 b (0 : Fin 1)) fun ax =>
      match ax with | ⟨0, _⟩ => rfl | ⟨1, _⟩ => rfl
  | 1 =>
    rw [if_neg (by decide)]
    exact concatenate_pair_apply_right 1 c0 c1 h _ rfl rfl (ix2 b (0 : Fin 1))
      (fun ax hne => match ax, hne with | ⟨0, _⟩, _ => rfl | ⟨1, _⟩, hne => absurd rfl hne) rfl

/-- The loss column at row b: the row's cross-entropy against its label. -/
theorem loss_apply (x0 : Vec Ideal S8192x64 .f32) (x1 : Vec Ideal S8192 .i32) (hφ : FKind.Formats .f32)
    (hmax : (0xFF800000#32 : BitVec 32) = FKind.maximumf.neutral .f32 hφ)
    (hadd : (0x00000000#32 : BitVec 32) = FKind.add.neutral .f32 hφ) (b : Fin 8192) (u : Fin 1) :
    (subf
        (addf
          (log
            (shapeCast S8192x1
              (multiReduction .add [1] S8192
                (exp
                  (subf x0
                    (broadcastTo S8192x64
                      (shapeCast S8192x1
                        (multiReduction .maximumf [1] S8192 x0 0xFF800000#32 reduces_S8192x64_S8192 hφ hmax)
                        shapeCasts_S8192_S8192x1)
                      broadcasts_S8192x1_S8192x64)))
                0x00000000#32 reduces_S8192x64_S8192 hφ hadd)
              shapeCasts_S8192_S8192x1))
          (shapeCast S8192x1
            (multiReduction .maximumf [1] S8192 x0 0xFF800000#32 reduces_S8192x64_S8192 hφ hmax)
            shapeCasts_S8192_S8192x1))
        (shapeCast S8192x1
          (multiReduction .add [1] S8192
            (select
              (cmpi .eq (iota .tc S8192x64 32 [1] iota_S8192x64_d1_w32)
                (broadcastTo S8192x64 (shapeCast S8192x1 x1 shapeCasts_S8192_S8192x1) broadcasts_S8192x1_S8192x64))
              x0 (broadcast S8192x64 (FloatOps.ofBits (F := Ideal) .f32 0#32)))
            0x00000000#32 reduces_S8192x64_S8192 hφ hadd)
          shapeCasts_S8192_S8192x1) : FVec Ideal S8192x1 .f32) (ix2 b u)
      = GroupLoss.rowLoss (fun j => x0 (ix2 b j)) (x1 (ix1 b)) := by
  rw [subf_apply, addf_apply]
  show (FloatOps.log (shapeCast S8192x1 _ shapeCasts_S8192_S8192x1 (ix2 b u))
      + shapeCast S8192x1 _ shapeCasts_S8192_S8192x1 (ix2 b u))
      - shapeCast S8192x1 _ shapeCasts_S8192_S8192x1 (ix2 b u) = _
  rw [shapeCast_a_a1_apply, shapeCast_a_a1_apply, shapeCast_a_a1_apply, rowSum_apply, rowSum_apply, rowMax_apply]
  rw [Finset.sum_congr rfl fun j _ => sel_apply x0 x1 b j,
    Finset.sum_congr rfl fun j _ => (expTerm_apply x0 _ b j).trans
      (congrArg (fun m => Ideal.exp (x0 (ix2 b j) - m)) (rowMax_apply x0 reduces_S8192x64_S8192 hφ hmax b))]
  rfl

/-- The matrix product of the body at one point: entry (g, k) is the sum over the block's 8192 samples of the group
    indicator times the sample's loss (k = 0) or one (k = 1). -/
theorem stats_apply (x0 : Vec Ideal S8192x64 .f32) (x1 x2 : Vec Ideal S8192 .i32) (g : Fin 16) (k : Fin 2) :
    k0_pay5 (F := Ideal) x0 x1 x2 (ix2 g k)
      = ∑ b : Fin 8192, GroupLoss.hot g (x2 (ix1 b))
          * (if k = 0 then GroupLoss.rowLoss (fun j => x0 (ix2 b j)) (x1 (ix1 b)) else 1) := by
  unfold k0_pay5
  simp only [matmul]
  rw [Ideal.matmul_constant_zero_apply,
    ← Equiv.sum_comp (contrEquiv1 dot_S8192x16_S8192x2_S16x2_0_0_1_1_n_n 8192 rfl rfl).symm]
  refine Finset.sum_congr rfl fun b _ => ?_
  rw [dot_lhs, dot_rhs, hot_apply, truncf_apply, concat_cols_apply]
  refine congrArg (GroupLoss.hot g (x2 (ix1 b)) * ·) ?_
  by_cases hk : k = 0
  · rw [if_pos hk, if_pos hk]
    exact loss_apply x0 x1 _ _ _ b 0
  · rw [if_neg hk, if_neg hk]
    exact IdealRules.sign_bit.ideal_onePat .f32

end Cert.KernelIdeal.Pay

end
-- ==== Proof.KTotals.lean ====
/-
  The grid's products summed over all 512 points, in terms of the whole argument arrays.

  Point n's input blocks are rows 8192·n to 8192·n + 8191 of the three arrays, so the sum over the points of the points'
  product entries (g, k) is the sum over all 4194304 samples of the group indicator times the sample's loss (k = 0) or
  one (k = 1): the group's loss sum, resp. its count.
-/
import proofs.«419858_j69733089018311_3_alg».proof.Proof.KAcc
import proofs.«419858_j69733089018311_3_alg».proof.Proof.KPay
import proofs.«419858_j69733089018311_3_alg».proof.Proof.Spec

noncomputable section

open Idealize.ShloMosaic Idealize.ShloMosaic.TcCoe Idealize.SL.Sem Idealize.ShloMosaic.ValueIdx

namespace Cert.KernelIdeal.Acc

open Cert.KernelIdeal Cert.KernelIdeal.Gen

variable (m : (ℓ : Loc nD τ sig) → Buf (Elt Ideal) ℓ)

/-- The input windows' block index at point `t` is `t` itself; the logits' blocks start at column 0. -/
theorem in_index0 : ∀ t : Fin cfg0.N, win0_0.index t 0 = t.val ∧ win0_0.index t 1 = 0 :=
  (by decide +kernel : ∀ t : Fin grid0.N, win0_0.index t 0 = t.val ∧ win0_0.index t 1 = 0)
theorem in_index1 : ∀ t : Fin cfg0.N, win0_1.index t 0 = t.val :=
  (by decide +kernel : ∀ t : Fin grid0.N, win0_1.index t 0 = t.val)
theorem in_index2 : ∀ t : Fin cfg0.N, win0_2.index t 0 = t.val :=
  (by decide +kernel : ∀ t : Fin grid0.N, win0_2.index t 0 = t.val)

/-- Point `t`'s logits block at (b, j) is the logits array at row 8192·t + b, column j. -/
theorem xblk_apply (c : Dev nD) (t : Fin cfg0.N) (b : Fin 8192) (j : Fin 64) (hb : t.val * 8192 + b.val < 4194304) :
    xblk m c t (ix2 b j)
      = m ((c : Thread nD τ).loc main_arg0) (ix2 (⟨t.val * 8192 + b.val, hb⟩ : Fin 4194304) j) := by
  show iblk m c 0 t _ = _
  unfold iblk
  rw [View.read_apply]
  show V m c main_arg0 _ = m _ _
  unfold V
  congr 1
  funext a
  apply Fin.ext
  match a with
  | ⟨0, _⟩ => show win0_0.index t 0 * 8192 + 1 * b.val = t.val * 8192 + b.val; rw [(in_index0 t).1]; omega
  | ⟨1, _⟩ => show win0_0.index t 1 * 64 + 1 * j.val = j.val; rw [(in_index0 t).2]; omega

/-- Point `t`'s label block at b is the label array at 8192·t + b. -/
theorem tblk_apply (c : Dev nD) (t : Fin cfg0.N) (b : Fin 8192) (hb : t.val * 8192 + b.val < 4194304) :
    tblk m c t (ix1 b) = m ((c : Thread nD τ).loc main_arg1) (ix1 (⟨t.val * 8192 + b.val, hb⟩ : Fin 4194304)) := by
  show iblk m c 1 t _ = _
  unfold iblk
  rw [View.read_apply]
  show V m c main_arg1 _ = m _ _
  unfold V
  congr 1
  funext a
  apply Fin.ext
  match a with
  | ⟨0, _⟩ => show win0_1.index t 0 * 8192 + 1 * b.val = t.val * 8192 + b.val; rw [in_index1 t]; omega

/-- Point `t`'s group block at b is the group array at 8192·t + b. -/
theorem gblk_apply (c : Dev nD) (t : Fin cfg0.N) (b : Fin 8192) (hb : t.val * 8192 + b.val < 4194304) :
    gblk m c t (ix1 b) = m ((c : Thread nD τ).loc main_arg2) (ix1 (⟨t.val * 8192 + b.val, hb⟩ : Fin 4194304)) := by
  show iblk m c 2 t _ = _
  unfold iblk
  rw [View.read_apply]
  show V m c main_arg2 _ = m _ _
  unfold V
  congr 1
  funext a
  apply Fin.ext
  match a with
  | ⟨0, _⟩ => show win0_2.index t 0 * 8192 + 1 * b.val = t.val * 8192 + b.val; rw [in_index2 t]; omega

/-- Sample `N`'s contribution to group `g`: the group indicator times the sample's loss (k = 0) or one (k = 1). -/
def term (c : Dev nD) (k : Fin 2) (g : Fin 16) (N : Fin 4194304) : EReal :=
  GroupLoss.hot g (m ((c : Thread nD τ).loc main_arg2) (ix1 N))
    * (if k = 0 then GroupLoss.rowLoss (fun j => m ((c : Thread nD τ).loc main_arg0) (ix2 N j))
        (m ((c : Thread nD τ).loc main_arg1) (ix1 N)) else 1)

/-- Point `n`'s product entry (g, k) is the sum of the contributions of samples 8192·n to 8192·n + 8191. -/
theorem prodAt_eq (c : Dev nD) (k : Fin 2) (n : Fin 512) (g : Fin 16) :
    prodAt m c k n.val g
      = ∑ b : Fin 8192, term m c k g ⟨n.val * 8192 + b.val, by have := n.isLt; have := b.isLt; omega⟩ := by
  have h : n.val < cfg0.N := by rw [show cfg0.N = 512 from N_0]; exact n.isLt
  unfold prodAt
  rw [dif_pos h]
  refine (Cert.KernelIdeal.Pay.stats_apply (xblk m c ⟨n.val, h⟩) (tblk m c ⟨n.val, h⟩) (gblk m c ⟨n.val, h⟩) g k).trans ?_
  refine Finset.sum_congr rfl fun b _ => ?_
  have hb : n.val * 8192 + b.val < 4194304 := by have := n.isLt; have := b.isLt; omega
  have e2 := gblk_apply m c ⟨n.val, h⟩ b hb
  have e1 := tblk_apply m c ⟨n.val, h⟩ b hb
  have e0 : (fun j => xblk m c ⟨n.val, h⟩ (ix2 b j))
      = fun j => m ((c : Thread nD τ).loc main_arg0) (ix2 (⟨n.val * 8192 + b.val, hb⟩ : Fin 4194304) j) :=
    funext fun j => xblk_apply m c ⟨n.val, h⟩ b j hb
  rw [e2, e1, e0]
  rfl

/-- The samples are the pairs (point, sample within the point's block). -/
def sampleEquiv : Fin 512 × Fin 8192 ≃ Fin 4194304 :=
  finProdFinEquiv.trans (finCongr (by norm_num))

theorem sampleEquiv_val (n : Fin 512) (b : Fin 8192) : (sampleEquiv (n, b)).val = n.val * 8192 + b.val := by
  show b.val + 8192 * n.val = n.val * 8192 + b.val
  omega

/-- Summed over the grid's 512 points, the product entries (g, k) are the group's sum over all samples. -/
theorem prod_total (c : Dev nD) (k : Fin 2) (g : Fin 16) :
    ∑ n ∈ Finset.range 512, prodAt m c k n g
      = GroupLoss.groupSum (fun b => m ((c : Thread nD τ).loc main_arg2) (ix1 b))
          (fun b => if k = 0 then GroupLoss.rowLoss (fun j => m ((c : Thread nD τ).loc main_arg0) (ix2 b j))
            (m ((c : Thread nD τ).loc main_arg1) (ix1 b)) else 1) g := by
  show _ = ∑ N : Fin 4194304, term m c k g N
  rw [Finset.sum_range, ← Equiv.sum_comp sampleEquiv (term m c k g), Fintype.sum_prod_type]
  refine Finset.sum_congr rfl fun n _ => ?_
  rw [prodAt_eq m c k n g]
  refine Finset.sum_congr rfl fun b _ => ?_
  exact congrArg (term m c k g) (Fin.ext (sampleEquiv_val n b).symm)

end Cert.KernelIdeal.Acc

end
-- ==== Proof.SpecSums.lean ====
/-
  Two facts about the group indicator: a group word in [0, 16) belongs to exactly one of the 16 groups, so the indicators
  sum to one over the groups, and the group sums of any per-sample quantity then add up to its sum over all samples.
-/
import proofs.«419858_j69733089018311_3_alg».proof.Proof.Spec
import Mathlib.Algebra.BigOperators.Ring.Finset
import Mathlib.Algebra.BigOperators.Group.Finset.Basic

noncomputable section

namespace GroupLoss

open Idealize.ShloMosaic

/-- A 32-bit word whose signed value lies in [0, 16) is the word of exactly its own value. -/
theorem ofNat_eq_iff (w : BitVec 32) (h0 : 0 ≤ w.toInt) (h1 : w.toInt < 16) (g : Fin 16) :
    BitVec.ofNat 32 g.val = w ↔ g.val = w.toNat := by
  have hg : g.val < 16 := g.isLt
  constructor
  · intro h
    have := congrArg BitVec.toNat h
    rw [BitVec.toNat_ofNat] at this
    omega
  · intro h
    apply BitVec.eq_of_toNat_eq
    rw [BitVec.toNat_ofNat]
    omega

theorem toNat_lt (w : BitVec 32) (h0 : 0 ≤ w.toInt) (h1 : w.toInt < 16) : w.toNat < 16 := by
  have hw := w.isLt
  rw [BitVec.toInt_eq_toNat_cond] at h0 h1
  split at h0 <;> omega

/-- Over the 16 groups the indicators of one in-range group word sum to one. -/
theorem sum_hot (w : BitVec 32) (h0 : 0 ≤ w.toInt) (h1 : w.toInt < 16) : ∑ g : Fin 16, hot g w = 1 := by
  have hlt := toNat_lt w h0 h1
  rw [Finset.sum_eq_single (⟨w.toNat, hlt⟩ : Fin 16)]
  · unfold hot
    rw [if_pos ((ofNat_eq_iff w h0 h1 _).mpr rfl)]
  · intro g _ hg
    unfold hot
    rw [if_neg]
    intro h
    exact hg (Fin.ext ((ofNat_eq_iff w h0 h1 g).mp h))
  · intro h; exact absurd (Finset.mem_univ _) h

/-- Against any extended real the indicators of one in-range group word pick it out once. -/
theorem sum_hot_mul (w : BitVec 32) (h0 : 0 ≤ w.toInt) (h1 : w.toInt < 16) (a : EReal) : ∑ g : Fin 16, hot g w * a = a := by
  have hlt := toNat_lt w h0 h1
  rw [Finset.sum_eq_single (⟨w.toNat, hlt⟩ : Fin 16)]
  · unfold hot
    rw [if_pos ((ofNat_eq_iff w h0 h1 _).mpr rfl), one_mul]
  · intro g _ hg
    unfold hot
    rw [if_neg, zero_mul]
    intro h
    exact hg (Fin.ext ((ofNat_eq_iff w h0 h1 g).mp h))
  · intro h; exact absurd (Finset.mem_univ _) h

/-- With every group word in range, the 16 group sums of a per-sample quantity add up to its sum over all samples. -/
theorem sum_groupSum (gr : Fin 4194304 → BitVec 32) (p : Fin 4194304 → EReal)
    (hg : ∀ b, 0 ≤ (gr b).toInt ∧ (gr b).toInt < 16) :
    ∑ g : Fin 16, groupSum gr p g = ∑ b : Fin 4194304, p b := by
  unfold groupSum
  rw [Finset.sum_comm]
  refine Finset.sum_congr rfl fun b _ => ?_
  exact sum_hot_mul (gr b) (hg b).1 (hg b).2 (p b)

end GroupLoss

end
-- ==== Proof.RefRunH.lean ====
/-
  The reference program's run, read back stage by stage.

  @main is a straight line of 65 host operations. Run from any memory it terminates, and each buffer then holds the
  value of its stage as a function of the three arguments: the log-softmax of the logits (operations 1 to 15), the
  negated log-probability of each row's label (16 to 40: the labels broadcast, the gather with its bounds mask, the
  reshape and the negation), and from there the two scatter-adds by group, the masked quotient and the mean (41 to 65).
  The line is read in these three stretches, each from the values the stretch before left.
-/
import proofs.«419858_j69733089018311_3_alg».proof.Proof.RefRead
import Idealize.ShloMosaic.Lib.StableHlo.Run
import Idealize.ShloMosaic.Lib.Pipeline.Frame

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- @main's 65 operations, in order (a called function's operations stand in its call's place). -/
abbrev ops : List (HloOp τ sig (Elt F)) :=
  [ TRef.nullary (TRef.of (T := ⟨S_, .f32⟩) main_call0_cst) (constant S_ .f32 0xFF800000#32),
    TRef.binary (TRef.of (T := ⟨S4194304x64, .f32⟩) main_arg0) (TRef.of (T := ⟨S_, .f32⟩) main_call0_cst) (TRef.of (T := ⟨S4194304, .f32⟩) main_call0_v0) (fun x v => Host.reduce FloatOps.maximumf x v reducesTo_S4194304x64_S4194304_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4194304, .f32⟩) main_call0_v1) (broadcastInDim S4194304 ![] bcast_S_S4194304),
    TRef.binary (TRef.of (T := ⟨S4194304, .f32⟩) main_call0_v1) (TRef.of (T := ⟨S4194304, .f32⟩) main_call0_v0) (TRef.of (T := ⟨S4194304, .f32⟩) main_call0_v2) maximumf,
    TRef.unary (TRef.of (T := ⟨S4194304, .f32⟩) main_call0_v2) (TRef.of (T := ⟨S4194304x1, .f32⟩) main_call0_v3) (broadcastInDim S4194304x1 ![0] bcast_S4194304_S4194304x1_0),
    TRef.unary (TRef.of (T := ⟨S4194304x1, .f32⟩) main_call0_v3) (TRef.of (T := ⟨S4194304x64, .f32⟩) main_call0_v4) (broadcastInDim S4194304x64 ![0, 1] bcast_S4194304x1_S4194304x64_0_1),
    TRef.binary (TRef.of (T := ⟨S4194304x64, .f32⟩) main_arg0) (TRef.of (T := ⟨S4194304x64, .f32⟩) main_call0_v4) (TRef.of (T := ⟨S4194304x64, .f32⟩) main_call0_v5) subf,
    TRef.unary (TRef.of (T := ⟨S4194304x64, .f32⟩) main_call0_v5) (TRef.of (T := ⟨S4194304x64, .f32⟩) main_call0_v6) Host.exp,
    TRef.nullary (TRef.of (T := ⟨S_, .f32⟩) main_call0_cst_1) (constant S_ .f32 0x00000000#32),
    TRef.binary (TRef.of (T := ⟨S4194304x64, .f32⟩) main_call0_v6) (TRef.of (T := ⟨S_, .f32⟩) main_call0_cst_1) (TRef.of (T := ⟨S4194304, .f32⟩) main_call0_v7) (fun x v => Host.reduceAdd x v reducesTo_S4194304x64_S4194304_d1 h_S_),
    TRef.unary (TRef.of (T := ⟨S4194304, .f32⟩) main_call0_v7) (TRef.of (T := ⟨S4194304x1, .f32⟩) main_call0_v8) (broadcastInDim S4194304x1 ![0] bcast_S4194304_S4194304x1_0),
    TRef.unary (TRef.of (T := ⟨S4194304x1, .f32⟩) main_call0_v8) (TRef.of (T := ⟨S4194304x1, .f32⟩) main_call0_v9) Host.log,
    TRef.unary (TRef.of (T := ⟨S4194304x1, .f32⟩) main_call0_v9) (TRef.of (T := ⟨S4194304x64, .f32⟩) main_call0_v10) (broadcastInDim S4194304x64 ![0, 1] bcast_S4194304x1_S4194304x64_0_1),
    TRef.binary (TRef.of (T := ⟨S4194304x64, .f32⟩) main_call0_v5) (TRef.of (T := ⟨S4194304x64, .f32⟩) main_call0_v10) (TRef.of (T := ⟨S4194304x64, .f32⟩) main_v0) subf,
    unary main_arg1 main_v1 (broadcastInDim S4194304x1 ![0] bcast_S4194304_S4194304x1_0 : (⟨S4194304, .i32⟩ : BufTy).Contents (Elt F) → (⟨S4194304x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4194304x1, .i32⟩) main_call1_v0) (broadcastInDim S4194304x1 ![] bcast_S_S4194304x1),
    TRef.binary (TRef.of (T := ⟨S4194304x1, .i32⟩) main_v1) (TRef.of (T := ⟨S4194304x1, .i32⟩) main_call1_v0) (TRef.of (T := ⟨S4194304x1, .i1⟩) main_call1_v1) (cmpi .slt),
    TRef.nullary (TRef.of (T := ⟨S_, .i32⟩) main_call1_c_0) (constantI S_ 32 64#32),
    TRef.unary (TRef.of (T := ⟨S_, .i32⟩) main_call1_c_0) (TRef.of (T := ⟨S4194304x1, .i32⟩) main_call1_v2) (broadcastInDim S4194304x1 ![] bcast_S_S4194304x1),
    TRef.binary (TRef.of (T := ⟨S4194304x1, .i32⟩) main_v1) (TRef.of (T := ⟨S4194304x1, .i32⟩) main_call1_v2) (TRef.of (T := ⟨S4194304x1, .i32⟩) main_call1_v3) addi,
    TRef.ternary (TRef.of (T := ⟨S4194304x1, .i1⟩) main_call1_v1) (TRef.of (T := ⟨S4194304x1, .i32⟩) main_call1_v3) (TRef.of (T := ⟨S4194304x1, .i32⟩) main_v1) (TRef.of (T := ⟨S4194304x1, .i32⟩) main_call1_v4) select,
    TRef.reshape (TRef.of (T := ⟨S4194304x1, .i32⟩) main_call1_v4) (TRef.of (T := ⟨S4194304x1x1, .i32⟩) main_call1_v5) rfl shapeCasts_S4194304x1_S4194304x1x1,
    TRef.nullary (TRef.of (T := ⟨S1, .i32⟩) main_call1_c_1) (constantI S1 32 63#32),
    TRef.nullary (TRef.of (T := ⟨S_, .i32⟩) main_call1_c_2) (constantI S_ 32 0#32),
    TRef.unary (TRef.of (T := ⟨S_, .i32⟩) main_call1_c_2) (TRef.of (T := ⟨S4194304x1x1, .i32⟩) main_call1_v6) (broadcastInDim S4194304x1x1 ![] bcast_S_S4194304x1x1),
    TRef.binary (TRef.of (T := ⟨S4194304x1x1, .i32⟩) main_call1_v5) (TRef.of (T := ⟨S4194304x1x1, .i32⟩) main_call1_v6) (TRef.of (T := ⟨S4194304x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S4194304x1x1, .i32⟩) main_call1_v9) (broadcastInDim S4194304x1x1 ![0, 1, 2] bcast_S1x1x1_S4194304x1x1_0_1_2),
    TRef.binary (TRef.of (T := ⟨S4194304x1x1, .i32⟩) main_call1_v5) (TRef.of (T := ⟨S4194304x1x1, .i32⟩) main_call1_v9) (TRef.of (T := ⟨S4194304x1x1, .i1⟩) main_call1_v10) (cmpi .sle),
    TRef.binary (TRef.of (T := ⟨S4194304x1x1, .i1⟩) main_call1_v7) (TRef.of (T := ⟨S4194304x1x1, .i1⟩) main_call1_v10) (TRef.of (T := ⟨S4194304x1x1, .i1⟩) main_call1_v11) andi,
    TRef.nullary (TRef.of (T := ⟨S_, .i1⟩) main_call1_c_3) (constantI S_ 1 1#1),
    TRef.binary (TRef.of (T := ⟨S4194304x1x1, .i1⟩) main_call1_v11) (TRef.of (T := ⟨S_, .i1⟩) main_call1_c_3) (TRef.of (T := ⟨S4194304x1, .i1⟩) main_call1_v12) (fun x v => Host.reduce IntOp.andi x v reducesTo_S4194304x1x1_S4194304x1_d2 h_S_),
    TRef.binary (TRef.of (T := ⟨S4194304x64, .f32⟩) main_v0) (TRef.of (T := ⟨S4194304x1x1, .i32⟩) main_call1_v5) (TRef.of (T := ⟨S4194304x1, .f32⟩) main_call1_v13) (fun x i => Host.gather gather_S4194304x64_S4194304x1x1_S4194304x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S4194304x1, .f32⟩) main_call1_v14) (broadcastInDim S4194304x1 ![] bcast_S_S4194304x1),
    TRef.ternary (TRef.of (T := ⟨S4194304x1, .i1⟩) main_call1_v12) (TRef.of (T := ⟨S4194304x1, .f32⟩) main_call1_v13) (TRef.of (T := ⟨S4194304x1, .f32⟩) main_call1_v14) (TRef.of (T := ⟨S4194304x1, .f32⟩) main_v2) select,
    reshape main_v2 main_v3 rfl shapeCasts_S4194304x1_S4194304,
    unary main_v3 main_v4 (Host.negf : (⟨S4194304, .f32⟩ : BufTy).Contents (Elt F) → (⟨S4194304, .f32⟩ : BufTy).Contents (Elt F)),
    nullary main_cst (constant S_ .f32 0x00000000#32),
    unary main_cst main_v5 (broadcastInDim S16 ![] bcast_S_S16 : (⟨S_, .f32⟩ : BufTy).Contents (Elt F) → (⟨S16, .f32⟩ : BufTy).Contents (Elt F)),
    unary main_arg2 main_v6 (broadcastInDim S4194304x1 ![0] bcast_S4194304_S4194304x1_0 : (⟨S4194304, .i32⟩ : BufTy).Contents (Elt F) → (⟨S4194304x1, .i32⟩ : BufTy).Contents (Elt F)),
    ternary main_v5 main_v6 main_v4 main_v7 ((fun x i u => Host.scatterAdd scatter_S16_S4194304x1_S4194304_n_0_0_1 x i u) : (⟨S16, .f32⟩ : BufTy).Contents (Elt F) → (⟨S4194304x1, .i32⟩ : BufTy).Contents (Elt F) → (⟨S4194304, .f32⟩ : BufTy).Contents (Elt F) → (⟨S16, .f32⟩ : BufTy).Contents (Elt F)),
    nullary main_cst_0 (constant S_ .f32 0x3F800000#32),
    unary main_cst_0 main_v8 (broadcastInDim S4194304 ![] bcast_S_S4194304 : (⟨S_, .f32⟩ : BufTy).Contents (Elt F) → (⟨S4194304, .f32⟩ : BufTy).Contents (Elt F)),
    nullary main_cst_1 (constant S_ .f32 0x00000000#32),
    unary main_cst_1 main_v9 (broadcastInDim S16 ![] bcast_S_S16 : (⟨S_, .f32⟩ : BufTy).Contents (Elt F) → (⟨S16, .f32⟩ : BufTy).Contents (Elt F)),
    unary main_arg2 main_v10 (broadcastInDim S4194304x1 ![0] bcast_S4194304_S4194304x1_0 : (⟨S4194304, .i32⟩ : BufTy).Contents (Elt F) → (⟨S4194304x1, .i32⟩ : BufTy).Contents (Elt F)),
    ternary main_v9 main_v10 main_v8 main_v11 ((fun x i u => Host.scatterAdd scatter_S16_S4194304x1_S4194304_n_0_0_1 x i u) : (⟨S16, .f32⟩ : BufTy).Contents (Elt F) → (⟨S4194304x1, .i32⟩ : BufTy).Contents (Elt F) → (⟨S4194304, .f32⟩ : BufTy).Contents (Elt F) → (⟨S16, .f32⟩ : BufTy).Contents (Elt F)),
    nullary main_cst_2 (constant S_ .f32 0x00000000#32),
    unary main_cst_2 main_v12 (broadcastInDim S16 ![] bcast_S_S16 : (⟨S_, .f32⟩ : BufTy).Contents (Elt F) → (⟨S16, .f32⟩ : BufTy).Contents (Elt F)),
    binary main_v11 main_v12 main_v13 (cmpf (F := F) .ogt : (⟨S16, .f32⟩ : BufTy).Contents (Elt F) → (⟨S16, .f32⟩ : BufTy).Contents (Elt F) → (⟨S16, .i1⟩ : BufTy).Contents (Elt F)),
    nullary main_cst_3 (constant S_ .f32 0x3F800000#32),
    unary main_cst_3 main_v14 (broadcastInDim S16 ![] bcast_S_S16 : (⟨S_, .f32⟩ : BufTy).Contents (Elt F) → (⟨S16, .f32⟩ : BufTy).Contents (Elt F)),
    binary main_v11 main_v14 main_v15 (maximumf : (⟨S16, .f32⟩ : BufTy).Contents (Elt F) → (⟨S16, .f32⟩ : BufTy).Contents (Elt F) → (⟨S16, .f32⟩ : BufTy).Contents (Elt F)),
    binary main_v7 main_v15 main_v16 (Host.divf : (⟨S16, .f32⟩ : BufTy).Contents (Elt F) → (⟨S16, .f32⟩ : BufTy).Contents (Elt F) → (⟨S16, .f32⟩ : BufTy).Contents (Elt F)),
    nullary main_cst_4 (constant S_ .f32 0x00000000#32),
    TRef.unary (TRef.of (T := ⟨S_, .f32⟩) main_cst_4) (TRef.of (T := ⟨S_, .f32⟩) main_call2_v0) id,
    TRef.unary (TRef.of (T := ⟨S_, .f32⟩) main_call2_v0) (TRef.of (T := ⟨S16, .f32⟩) main_call2_v1) (broadcastInDim S16 ![] bcast_S_S16),
    TRef.ternary (TRef.of (T := ⟨S16, .i1⟩) main_v13) (TRef.of (T := ⟨S16, .f32⟩) main_v16) (TRef.of (T := ⟨S16, .f32⟩) main_call2_v1) (TRef.of (T := ⟨S16, .f32⟩) main_v17) select,
    nullary main_cst_5 (constant S_ .f32 0x00000000#32),
    binary main_v4 main_cst_5 main_v18 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    nullary main_cst_6 (constant S_ .f32 0x4A800000#32),
    binary main_v18 main_cst_6 main_v19 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., nullary_bufs_sub .., binary_bufs_sub .., nullary_bufs_sub .., binary_bufs_sub ..⟩

/-- Operations 1 to 15: the log-softmax. -/
abbrev opsA : List (HloOp τ sig (Elt F)) :=
  [ TRef.nullary (TRef.of (T := ⟨S_, .f32⟩) main_call0_cst) (constant S_ .f32 0xFF800000#32),
    TRef.binary (TRef.of (T := ⟨S4194304x64, .f32⟩) main_arg0) (TRef.of (T := ⟨S_, .f32⟩) main_call0_cst) (TRef.of (T := ⟨S4194304, .f32⟩) main_call0_v0) (fun x v => Host.reduce FloatOps.maximumf x v reducesTo_S4194304x64_S4194304_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4194304, .f32⟩) main_call0_v1) (broadcastInDim S4194304 ![] bcast_S_S4194304),
    TRef.binary (TRef.of (T := ⟨S4194304, .f32⟩) main_call0_v1) (TRef.of (T := ⟨S4194304, .f32⟩) main_call0_v0) (TRef.of (T := ⟨S4194304, .f32⟩) main_call0_v2) maximumf,
    TRef.unary (TRef.of (T := ⟨S4194304, .f32⟩) main_call0_v2) (TRef.of (T := ⟨S4194304x1, .f32⟩) main_call0_v3) (broadcastInDim S4194304x1 ![0] bcast_S4194304_S4194304x1_0),
    TRef.unary (TRef.of (T := ⟨S4194304x1, .f32⟩) main_call0_v3) (TRef.of (T := ⟨S4194304x64, .f32⟩) main_call0_v4) (broadcastInDim S4194304x64 ![0, 1] bcast_S4194304x1_S4194304x64_0_1),
    TRef.binary (TRef.of (T := ⟨S4194304x64, .f32⟩) main_arg0) (TRef.of (T := ⟨S4194304x64, .f32⟩) main_call0_v4) (TRef.of (T := ⟨S4194304x64, .f32⟩) main_call0_v5) subf,
    TRef.unary (TRef.of (T := ⟨S4194304x64, .f32⟩) main_call0_v5) (TRef.of (T := ⟨S4194304x64, .f32⟩) main_call0_v6) Host.exp,
    TRef.nullary (TRef.of (T := ⟨S_, .f32⟩) main_call0_cst_1) (constant S_ .f32 0x00000000#32),
    TRef.binary (TRef.of (T := ⟨S4194304x64, .f32⟩) main_call0_v6) (TRef.of (T := ⟨S_, .f32⟩) main_call0_cst_1) (TRef.of (T := ⟨S4194304, .f32⟩) main_call0_v7) (fun x v => Host.reduceAdd x v reducesTo_S4194304x64_S4194304_d1 h_S_),
    TRef.unary (TRef.of (T := ⟨S4194304, .f32⟩) main_call0_v7) (TRef.of (T := ⟨S4194304x1, .f32⟩) main_call0_v8) (broadcastInDim S4194304x1 ![0] bcast_S4194304_S4194304x1_0),
    TRef.unary (TRef.of (T := ⟨S4194304x1, .f32⟩) main_call0_v8) (TRef.of (T := ⟨S4194304x1, .f32⟩) main_call0_v9) Host.log,
    TRef.unary (TRef.of (T := ⟨S4194304x1, .f32⟩) main_call0_v9) (TRef.of (T := ⟨S4194304x64, .f32⟩) main_call0_v10) (broadcastInDim S4194304x64 ![0, 1] bcast_S4194304x1_S4194304x64_0_1),
    TRef.binary (TRef.of (T := ⟨S4194304x64, .f32⟩) main_call0_v5) (TRef.of (T := ⟨S4194304x64, .f32⟩) main_call0_v10) (TRef.of (T := ⟨S4194304x64, .f32⟩) main_v0) subf ]

/-- Operations 16 to 40: each row's label picked out of the log-softmax, negated. -/
abbrev opsB : List (HloOp τ sig (Elt F)) :=
  [ unary main_arg1 main_v1 (broadcastInDim S4194304x1 ![0] bcast_S4194304_S4194304x1_0 : (⟨S4194304, .i32⟩ : BufTy).Contents (Elt F) → (⟨S4194304x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4194304x1, .i32⟩) main_call1_v0) (broadcastInDim S4194304x1 ![] bcast_S_S4194304x1),
    TRef.binary (TRef.of (T := ⟨S4194304x1, .i32⟩) main_v1) (TRef.of (T := ⟨S4194304x1, .i32⟩) main_call1_v0) (TRef.of (T := ⟨S4194304x1, .i1⟩) main_call1_v1) (cmpi .slt),
    TRef.nullary (TRef.of (T := ⟨S_, .i32⟩) main_call1_c_0) (constantI S_ 32 64#32),
    TRef.unary (TRef.of (T := ⟨S_, .i32⟩) main_call1_c_0) (TRef.of (T := ⟨S4194304x1, .i32⟩) main_call1_v2) (broadcastInDim S4194304x1 ![] bcast_S_S4194304x1),
    TRef.binary (TRef.of (T := ⟨S4194304x1, .i32⟩) main_v1) (TRef.of (T := ⟨S4194304x1, .i32⟩) main_call1_v2) (TRef.of (T := ⟨S4194304x1, .i32⟩) main_call1_v3) addi,
    TRef.ternary (TRef.of (T := ⟨S4194304x1, .i1⟩) main_call1_v1) (TRef.of (T := ⟨S4194304x1, .i32⟩) main_call1_v3) (TRef.of (T := ⟨S4194304x1, .i32⟩) main_v1) (TRef.of (T := ⟨S4194304x1, .i32⟩) main_call1_v4) select,
    TRef.reshape (TRef.of (T := ⟨S4194304x1, .i32⟩) main_call1_v4) (TRef.of (T := ⟨S4194304x1x1, .i32⟩) main_call1_v5) rfl shapeCasts_S4194304x1_S4194304x1x1,
    TRef.nullary (TRef.of (T := ⟨S1, .i32⟩) main_call1_c_1) (constantI S1 32 63#32),
    TRef.nullary (TRef.of (T := ⟨S_, .i32⟩) main_call1_c_2) (constantI S_ 32 0#32),
    TRef.unary (TRef.of (T := ⟨S_, .i32⟩) main_call1_c_2) (TRef.of (T := ⟨S4194304x1x1, .i32⟩) main_call1_v6) (broadcastInDim S4194304x1x1 ![] bcast_S_S4194304x1x1),
    TRef.binary (TRef.of (T := ⟨S4194304x1x1, .i32⟩) main_call1_v5) (TRef.of (T := ⟨S4194304x1x1, .i32⟩) main_call1_v6) (TRef.of (T := ⟨S4194304x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S4194304x1x1, .i32⟩) main_call1_v9) (broadcastInDim S4194304x1x1 ![0, 1, 2] bcast_S1x1x1_S4194304x1x1_0_1_2),
    TRef.binary (TRef.of (T := ⟨S4194304x1x1, .i32⟩) main_call1_v5) (TRef.of (T := ⟨S4194304x1x1, .i32⟩) main_call1_v9) (TRef.of (T := ⟨S4194304x1x1, .i1⟩) main_call1_v10) (cmpi .sle),
    TRef.binary (TRef.of (T := ⟨S4194304x1x1, .i1⟩) main_call1_v7) (TRef.of (T := ⟨S4194304x1x1, .i1⟩) main_call1_v10) (TRef.of (T := ⟨S4194304x1x1, .i1⟩) main_call1_v11) andi,
    TRef.nullary (TRef.of (T := ⟨S_, .i1⟩) main_call1_c_3) (constantI S_ 1 1#1),
    TRef.binary (TRef.of (T := ⟨S4194304x1x1, .i1⟩) main_call1_v11) (TRef.of (T := ⟨S_, .i1⟩) main_call1_c_3) (TRef.of (T := ⟨S4194304x1, .i1⟩) main_call1_v12) (fun x v => Host.reduce IntOp.andi x v reducesTo_S4194304x1x1_S4194304x1_d2 h_S_),
    TRef.binary (TRef.of (T := ⟨S4194304x64, .f32⟩) main_v0) (TRef.of (T := ⟨S4194304x1x1, .i32⟩) main_call1_v5) (TRef.of (T := ⟨S4194304x1, .f32⟩) main_call1_v13) (fun x i => Host.gather gather_S4194304x64_S4194304x1x1_S4194304x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S4194304x1, .f32⟩) main_call1_v14) (broadcastInDim S4194304x1 ![] bcast_S_S4194304x1),
    TRef.ternary (TRef.of (T := ⟨S4194304x1, .i1⟩) main_call1_v12) (TRef.of (T := ⟨S4194304x1, .f32⟩) main_call1_v13) (TRef.of (T := ⟨S4194304x1, .f32⟩) main_call1_v14) (TRef.of (T := ⟨S4194304x1, .f32⟩) main_v2) select,
    reshape main_v2 main_v3 rfl shapeCasts_S4194304x1_S4194304,
    unary main_v3 main_v4 (Host.negf : (⟨S4194304, .f32⟩ : BufTy).Contents (Elt F) → (⟨S4194304, .f32⟩ : BufTy).Contents (Elt F)) ]

/-- Operations 41 to 65: the sums and counts by group, the masked quotient, the mean. -/
abbrev opsC : List (HloOp τ sig (Elt F)) :=
  [ nullary main_cst (constant S_ .f32 0x00000000#32),
    unary main_cst main_v5 (broadcastInDim S16 ![] bcast_S_S16 : (⟨S_, .f32⟩ : BufTy).Contents (Elt F) → (⟨S16, .f32⟩ : BufTy).Contents (Elt F)),
    unary main_arg2 main_v6 (broadcastInDim S4194304x1 ![0] bcast_S4194304_S4194304x1_0 : (⟨S4194304, .i32⟩ : BufTy).Contents (Elt F) → (⟨S4194304x1, .i32⟩ : BufTy).Contents (Elt F)),
    ternary main_v5 main_v6 main_v4 main_v7 ((fun x i u => Host.scatterAdd scatter_S16_S4194304x1_S4194304_n_0_0_1 x i u) : (⟨S16, .f32⟩ : BufTy).Contents (Elt F) → (⟨S4194304x1, .i32⟩ : BufTy).Contents (Elt F) → (⟨S4194304, .f32⟩ : BufTy).Contents (Elt F) → (⟨S16, .f32⟩ : BufTy).Contents (Elt F)),
    nullary main_cst_0 (constant S_ .f32 0x3F800000#32),
    unary main_cst_0 main_v8 (broadcastInDim S4194304 ![] bcast_S_S4194304 : (⟨S_, .f32⟩ : BufTy).Contents (Elt F) → (⟨S4194304, .f32⟩ : BufTy).Contents (Elt F)),
    nullary main_cst_1 (constant S_ .f32 0x00000000#32),
    unary main_cst_1 main_v9 (broadcastInDim S16 ![] bcast_S_S16 : (⟨S_, .f32⟩ : BufTy).Contents (Elt F) → (⟨S16, .f32⟩ : BufTy).Contents (Elt F)),
    unary main_arg2 main_v10 (broadcastInDim S4194304x1 ![0] bcast_S4194304_S4194304x1_0 : (⟨S4194304, .i32⟩ : BufTy).Contents (Elt F) → (⟨S4194304x1, .i32⟩ : BufTy).Contents (Elt F)),
    ternary main_v9 main_v10 main_v8 main_v11 ((fun x i u => Host.scatterAdd scatter_S16_S4194304x1_S4194304_n_0_0_1 x i u) : (⟨S16, .f32⟩ : BufTy).Contents (Elt F) → (⟨S4194304x1, .i32⟩ : BufTy).Contents (Elt F) → (⟨S4194304, .f32⟩ : BufTy).Contents (Elt F) → (⟨S16, .f32⟩ : BufTy).Contents (Elt F)),
    nullary main_cst_2 (constant S_ .f32 0x00000000#32),
    unary main_cst_2 main_v12 (broadcastInDim S16 ![] bcast_S_S16 : (⟨S_, .f32⟩ : BufTy).Contents (Elt F) → (⟨S16, .f32⟩ : BufTy).Contents (Elt F)),
    binary main_v11 main_v12 main_v13 (cmpf (F := F) .ogt : (⟨S16, .f32⟩ : BufTy).Contents (Elt F) → (⟨S16, .f32⟩ : BufTy).Contents (Elt F) → (⟨S16, .i1⟩ : BufTy).Contents (Elt F)),
    nullary main_cst_3 (constant S_ .f32 0x3F800000#32),
    unary main_cst_3 main_v14 (broadcastInDim S16 ![] bcast_S_S16 : (⟨S_, .f32⟩ : BufTy).Contents (Elt F) → (⟨S16, .f32⟩ : BufTy).Contents (Elt F)),
    binary main_v11 main_v14 main_v15 (maximumf : (⟨S16, .f32⟩ : BufTy).Contents (Elt F) → (⟨S16, .f32⟩ : BufTy).Contents (Elt F) → (⟨S16, .f32⟩ : BufTy).Contents (Elt F)),
    binary main_v7 main_v15 main_v16 (Host.divf : (⟨S16, .f32⟩ : BufTy).Contents (Elt F) → (⟨S16, .f32⟩ : BufTy).Contents (Elt F) → (⟨S16, .f32⟩ : BufTy).Contents (Elt F)),
    nullary main_cst_4 (constant S_ .f32 0x00000000#32),
    TRef.unary (TRef.of (T := ⟨S_, .f32⟩) main_cst_4) (TRef.of (T := ⟨S_, .f32⟩) main_call2_v0) id,
    TRef.unary (TRef.of (T := ⟨S_, .f32⟩) main_call2_v0) (TRef.of (T := ⟨S16, .f32⟩) main_call2_v1) (broadcastInDim S16 ![] bcast_S_S16),
    TRef.ternary (TRef.of (T := ⟨S16, .i1⟩) main_v13) (TRef.of (T := ⟨S16, .f32⟩) main_v16) (TRef.of (T := ⟨S16, .f32⟩) main_call2_v1) (TRef.of (T := ⟨S16, .f32⟩) main_v17) select,
    nullary main_cst_5 (constant S_ .f32 0x00000000#32),
    binary main_v4 main_cst_5 main_v18 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    nullary main_cst_6 (constant S_ .f32 0x4A800000#32),
    binary main_v18 main_cst_6 main_v19 (Host.divf : (⟨S_, .f32⟩ : BufTy).Contents (Elt F) → (⟨S_, .f32⟩ : BufTy).Contents (Elt F) → (⟨S_, .f32⟩ : BufTy).Contents (Elt F)) ]

theorem ops_split : (ops : List (HloOp τ sig (Elt F))) = opsA ++ (opsB ++ opsC) := rfl

/-- Contents carried to a typed reference's own buffer type and back are what they were. -/
theorem ofBuf_toBuf {sg : RefSig} {Val : EltTy → Type} {T : BufTy} (x : TRef sg T) (v : T.Contents Val) :
    x.ofBuf (x.toBuf v) = v := by
  obtain ⟨r, rfl, _, _⟩ := x
  rfl

/-! The typed references of the first stretch at their literal buffers: moving contents to or from the buffer's own
    type is the identity, the buffer's type being the reference's by computation. -/
theorem toBuf_v0 (u : (⟨S4194304x64, .f32⟩ : BufTy).Contents (Elt F)) :
    (TRef.of (T := ⟨S4194304x64, .f32⟩) main_v0).toBuf (Val := Elt F) u = u := rfl
theorem ofBuf_arg0 (u : (⟨S4194304x64, .f32⟩ : BufTy).Contents (Elt F)) :
    (TRef.of (T := ⟨S4194304x64, .f32⟩) main_arg0).ofBuf (Val := Elt F) u = u := rfl

/-! The typed references of this stretch at their literal buffers: moving contents to or from the buffer's own type is
    the identity, the buffer's type being the reference's by computation. -/
theorem ofBuf_v1 (u : (⟨S4194304x1, .i32⟩ : BufTy).Contents (Elt F)) :
    (TRef.of (T := ⟨S4194304x1, .i32⟩) main_v1).ofBuf (Val := Elt F) u = u := rfl
theorem toBuf_call1_v4 (u : (⟨S4194304x1, .i32⟩ : BufTy).Contents (Elt F)) :
    (TRef.of (T := ⟨S4194304x1, .i32⟩) main_call1_v4).toBuf (Val := Elt F) u = u := rfl
theorem ofBuf_call1_v5 (u : (⟨S4194304x1x1, .i32⟩ : BufTy).Contents (Elt F)) :
    (TRef.of (T := ⟨S4194304x1x1, .i32⟩) main_call1_v5).ofBuf (Val := Elt F) u = u := rfl
theorem toBuf_v2 (u : (⟨S4194304x1, .f32⟩ : BufTy).Contents (Elt F)) :
    (TRef.of (T := ⟨S4194304x1, .f32⟩) main_v2).toBuf (Val := Elt F) u = u := rfl
theorem ofBuf_v0 (u : (⟨S4194304x64, .f32⟩ : BufTy).Contents (Elt F)) :
    (TRef.of (T := ⟨S4194304x64, .f32⟩) main_v0).ofBuf (Val := Elt F) u = u := rfl

/-! The typed references of the third stretch at their literal buffers, likewise. -/
theorem toBuf_v17 (u : (⟨S16, .f32⟩ : BufTy).Contents (Elt F)) :
    (TRef.of (T := ⟨S16, .f32⟩) main_v17).toBuf (Val := Elt F) u = u := rfl
theorem ofBuf_v13 (u : (⟨S16, .i1⟩ : BufTy).Contents (Elt F)) :
    (TRef.of (T := ⟨S16, .i1⟩) main_v13).ofBuf (Val := Elt F) u = u := rfl
theorem ofBuf_v16 (u : (⟨S16, .f32⟩ : BufTy).Contents (Elt F)) :
    (TRef.of (T := ⟨S16, .f32⟩) main_v16).ofBuf (Val := Elt F) u = u := rfl
theorem ofBuf_cst_4 (u : (⟨S_, .f32⟩ : BufTy).Contents (Elt F)) :
    (TRef.of (T := ⟨S_, .f32⟩) main_cst_4).ofBuf (Val := Elt F) u = u := rfl

-- The folds along an axis, the gather and the scatter-adds stay closed below: each stretch's equation has the same one on
-- both sides, applied to the same operands, and never looks inside it.
attribute [local irreducible] Host.reduce Host.reduceAdd Host.gather Host.scatterAdd in
set_option maxRecDepth 8192 in
/-- After the first stretch `main_v0` holds the log-softmax stage of the logits; the arguments are untouched. -/
theorem afterA (W : Valuation τ sig (Elt F)) :
    after opsA W (Proc.devRef .tc main_v0) = val_main_v0 (F := F) (W (Proc.devRef .tc main_arg0))
      ∧ after opsA W (Proc.devRef .tc main_arg0) = W (Proc.devRef .tc main_arg0)
      ∧ after opsA W (Proc.devRef .tc main_arg1) = W (Proc.devRef .tc main_arg1)
      ∧ after opsA W (Proc.devRef .tc main_arg2) = W (Proc.devRef .tc main_arg2) := by
  refine ⟨?_, ?_, ?_, ?_⟩
  · after_results_simp
    simp only [ofBuf_toBuf]
    simp only [toBuf_v0, ofBuf_arg0]
    simp only [val_main_v0, val_main_call0_v10, val_main_call0_v9, val_main_call0_v8, val_main_call0_v7, val_main_call0_v6, val_main_call0_v5, val_main_call0_v4, val_main_call0_v3, val_main_call0_v2, val_main_call0_v1, val_main_call0_v0, val_main_call0_cst, val_main_call0_cst_0, val_main_call0_cst_1]
  · after_results_simp
  · after_results_simp
  · after_results_simp

attribute [local irreducible] Host.reduce Host.reduceAdd Host.gather Host.scatterAdd in
set_option maxRecDepth 8192 in
/-- After the second stretch `main_v4` holds the negated picked log-probabilities. -/
theorem afterB (W : Valuation τ sig (Elt F)) (x0 : (⟨S4194304x64, .f32⟩ : BufTy).Contents (Elt F))
    (h0 : W (Proc.devRef .tc main_v0) = val_main_v0 (F := F) x0) :
    after opsB W (Proc.devRef .tc main_v4) = val_main_v4 (F := F) x0 (W (Proc.devRef .tc main_arg1))
      ∧ after opsB W (Proc.devRef .tc main_arg0) = W (Proc.devRef .tc main_arg0)
      ∧ after opsB W (Proc.devRef .tc main_arg1) = W (Proc.devRef .tc main_arg1)
      ∧ after opsB W (Proc.devRef .tc main_arg2) = W (Proc.devRef .tc main_arg2) := by
  refine ⟨?_, ?_, ?_, ?_⟩
  · after_results_simp
    simp only [ofBuf_toBuf]
    rw [h0]
    simp only [ofBuf_v1, toBuf_call1_v4, ofBuf_call1_v5, toBuf_v2, ofBuf_v0]
    simp only [val_main_v4, val_main_v3, val_main_v2, val_main_call1_v14, val_main_call1_cst, val_main_call1_v13, val_main_call1_v12, val_main_call1_c_3, val_main_call1_v11, val_main_call1_v10, val_main_call1_v9, val_main_call1_v8, val_main_call1_v7, val_main_call1_v6, val_main_call1_c_2, val_main_call1_c_1, val_main_call1_v5, val_main_call1_v4, val_main_call1_v3, val_main_call1_v2, val_main_call1_c_0, val_main_call1_v1, val_main_call1_v0, val_main_call1_c, val_main_v1]
    rfl
  · after_results_simp
  · after_results_simp
  · after_results_simp

attribute [local irreducible] Host.reduce Host.reduceAdd Host.gather Host.scatterAdd in
set_option maxRecDepth 8192 in
/-- After the third stretch the three results hold their stages. -/
theorem afterC (W : Valuation τ sig (Elt F)) (x0 : (⟨S4194304x64, .f32⟩ : BufTy).Contents (Elt F))
    (x1 : (⟨S4194304, .i32⟩ : BufTy).Contents (Elt F))
    (h4 : W (Proc.devRef .tc main_v4) = val_main_v4 (F := F) x0 x1) :
    after opsC W (Proc.devRef .tc main_v19) = val_main_v19 (F := F) x0 x1
      ∧ after opsC W (Proc.devRef .tc main_v17) = val_main_v17 (F := F) x0 x1 (W (Proc.devRef .tc main_arg2))
      ∧ after opsC W (Proc.devRef .tc main_v11) = val_main_v11 (F := F) (W (Proc.devRef .tc main_arg2))
      ∧ after opsC W (Proc.devRef .tc main_arg0) = W (Proc.devRef .tc main_arg0)
      ∧ after opsC W (Proc.devRef .tc main_arg1) = W (Proc.devRef .tc main_arg1)
      ∧ after opsC W (Proc.devRef .tc main_arg2) = W (Proc.devRef .tc main_arg2) := by
  refine ⟨?_, ?_, ?_, ?_, ?_, ?_⟩
  · after_results_simp
    rw [h4]
    simp only [val_main_v19, val_main_v18, val_main_cst_5, val_main_cst_6]
  · after_results_simp
    simp only [ofBuf_toBuf]
    rw [h4]
    simp only [toBuf_v17, ofBuf_v13, ofBuf_v16, ofBuf_cst_4]
    simp only [val_main_v17, val_main_v13, val_main_v16, val_main_call2_v1, val_main_call2_v0, val_main_cst_4, val_main_v12, val_main_cst_2, val_main_v7, val_main_v15, val_main_v14, val_main_cst_3, val_main_v5, val_main_cst, val_main_v6, val_main_v11, val_main_v9, val_main_cst_1, val_main_v10, val_main_v8, val_main_cst_0]
  · after_results_simp
    simp only [val_main_v11, val_main_v9, val_main_cst_1, val_main_v10, val_main_v8, val_main_cst_0]
  · after_results_simp
  · after_results_simp
  · after_results_simp

/-- No operation of the line leaves a result undetermined. -/
theorem ops_fresh : ∀ op ∈ (ops : List (HloOp τ sig (Elt F))), op.fresh = ∅ := by
  have h : (ops : List (HloOp τ sig (Elt F))).Forall fun op => op.fresh = ∅ := by
    simp only [List.Forall]; repeat' constructor
  exact List.forall_iff_forall_mem.mp h

/-- The whole line's contents, stretch by stretch. -/
theorem after_ops (W : Valuation τ sig (Elt F)) :
    after ops W (Proc.devRef .tc main_v19) = val_main_v19 (F := F) (W (Proc.devRef .tc main_arg0)) (W (Proc.devRef .tc main_arg1))
      ∧ after ops W (Proc.devRef .tc main_v17)
          = val_main_v17 (F := F) (W (Proc.devRef .tc main_arg0)) (W (Proc.devRef .tc main_arg1)) (W (Proc.devRef .tc main_arg2))
      ∧ after ops W (Proc.devRef .tc main_v11) = val_main_v11 (F := F) (W (Proc.devRef .tc main_arg2))
      ∧ after ops W (Proc.devRef .tc main_arg0) = W (Proc.devRef .tc main_arg0)
      ∧ after ops W (Proc.devRef .tc main_arg1) = W (Proc.devRef .tc main_arg1)
      ∧ after ops W (Proc.devRef .tc main_arg2) = W (Proc.devRef .tc main_arg2) := by
  rw [ops_split, StableHlo.after_append, StableHlo.after_append]
  obtain ⟨a0, aa0, aa1, aa2⟩ := afterA W
  obtain ⟨b4, ba0, ba1, ba2⟩ := afterB (after opsA W) (W (Proc.devRef .tc main_arg0)) a0
  rw [aa1] at b4
  obtain ⟨c19, c17, c11, ca0, ca1, ca2⟩ := afterC (after opsB (after opsA W)) (W (Proc.devRef .tc main_arg0)) (W (Proc.devRef .tc main_arg1)) b4
  rw [ba2, aa2] at c17 c11
  exact ⟨c19, c17, c11, ca0.trans (ba0.trans aa0), ca1.trans (ba1.trans aa1), ca2.trans (ba2.trans aa2)⟩

/-- On every device, for any float values, from any memory with zero counters: every weakly fair execution of @main
    terminates with each result at its stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19)
          = val_main_v19 (F := F) (m ((c.tc : Thread nD τ).loc main_arg0)) (m ((c.tc : Thread nD τ).loc main_arg1))
      ∧ r.2.mem ((c.tc : Thread nD τ).loc main_v17)
          = val_main_v17 (F := F) (m ((c.tc : Thread nD τ).loc main_arg0)) (m ((c.tc : Thread nD τ).loc main_arg1))
              (m ((c.tc : Thread nD τ).loc main_arg2))
      ∧ r.2.mem ((c.tc : Thread nD τ).loc main_v11) = val_main_v11 (F := F) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  exact (θ_run defs _ _).mono (fun _ h c => by
      obtain ⟨e19, e17, e11, e0, e1, e2⟩ := after_ops (F := F) (launchContents m c)
      exact ⟨(h c main_v19).trans e19, (h c main_v17).trans e17, (h c main_v11).trans e11,
        (h c main_arg0).trans e0, (h c main_arg1).trans e1, (h c main_arg2).trans e2⟩)
    (run_seq scopedRefs_eq scopedSems_eq defs main (fun _ => ops) main_eq (fun _ => ops_sub) m ρ (fun _ => ops_fresh))

end Cert.ReferenceIdeal.RunH

end
-- ==== Proof.RowLoss.lean ====
/-
  The cross-entropy of a finite row in its two spellings.

  For a row x of 64 real numbers with maximum M and a label t in [0, 64): the negated log-softmax at the label,
  −((x_t − M) − log ∑ exp (x − M)), and the shifted log-sum-exp form (log ∑ exp (x − M) + M) − x_t are the same real
  number; over the extended reals the identity needs every term finite, which finiteness of the row gives.
-/
import proofs.«419858_j69733089018311_3_alg».proof.Proof.Spec
import Idealize.ShloMosaic.PureOps.Ideal.Laws
import Mathlib.Data.EReal.Operations
import Mathlib.Data.Finset.Lattice.Fold
import Mathlib.Algebra.Order.BigOperators.Group.Finset
import Mathlib.Analysis.Complex.Exponential
import Mathlib.Analysis.SpecialFunctions.Log.Basic
import Mathlib.Tactic.Ring

noncomputable section

namespace GroupLoss

open Idealize.ShloMosaic

/-- The pattern the row maximum starts from denotes −∞. -/
theorem ofBits_negInf : Ideal.ofBits .f32 0xFF800000#32 = ⊥ := by simp [Ideal.ofBits, Ideal.ieee]

/-- A finite sum of reals, taken over the extended reals, is the real sum. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The maximum of a row of reals, taken from −∞, is a real. -/
theorem rowMax_real (x : Fin 64 → EReal) (hx : ∀ k, ∃ r : ℝ, x k = (r : EReal)) : ∃ r : ℝ, rowMax x = (r : EReal) := by
  have hs : rowMax x = (Finset.univ : Finset (Fin 64)).sup x := by
    unfold rowMax
    rw [ofBits_negInf]
    rfl
  obtain ⟨k, _, hk⟩ := Finset.exists_mem_eq_sup (Finset.univ : Finset (Fin 64)) Finset.univ_nonempty x
  obtain ⟨r, hr⟩ := hx k
  exact ⟨r, by rw [hs, hk, hr]⟩

/-- The sum of the exponentials of a row of reals shifted by a real is a positive real. -/
theorem sumExp_real (r : Fin 64 → ℝ) (M : ℝ) :
    ∑ k : Fin 64, Ideal.exp (((r k : ℝ) : EReal) - (M : EReal)) = ((∑ k : Fin 64, Real.exp (r k - M) : ℝ) : EReal) := by
  rw [← coe_sum]
  refine Finset.sum_congr rfl fun k _ => ?_
  rw [← EReal.coe_sub, Ideal.exp_coe]

/-- The log of the sum of the exponentials of a row of reals shifted by its maximum is a real. -/
theorem logSumExp_real (x : Fin 64 → EReal) (hx : ∀ k, ∃ r : ℝ, x k = (r : EReal)) :
    ∃ r : ℝ, Ideal.log (∑ k : Fin 64, Ideal.exp (x k - rowMax x)) = (r : EReal) := by
  obtain ⟨M, hM⟩ := rowMax_real x hx
  choose r hr using hx
  have hpos : 0 < ∑ k : Fin 64, Real.exp (r k - M) := Finset.sum_pos (fun k _ => Real.exp_pos _) Finset.univ_nonempty
  refine ⟨Real.log (∑ k : Fin 64, Real.exp (r k - M)), ?_⟩
  rw [hM, show (fun k => Ideal.exp (x k - (M : EReal))) = fun k => Ideal.exp (((r k : ℝ) : EReal) - (M : EReal)) from
    funext fun k => by rw [hr k]]
  rw [sumExp_real, Ideal.log_coe, if_neg (not_le.mpr hpos)]

/-- For a label in [0, 64), column k carries the label's word exactly when k is the label. -/
theorem ofNat_eq_label_iff (t : BitVec 32) (hlt : t.toNat < 64) (k : Fin 64) :
    BitVec.ofNat 32 k.val = t ↔ k.val = t.toNat := by
  have hk : k.val < 64 := k.isLt
  constructor
  · intro h
    have := congrArg BitVec.toNat h
    rw [BitVec.toNat_ofNat] at this
    omega
  · intro h
    apply BitVec.eq_of_toNat_eq
    rw [BitVec.toNat_ofNat]
    omega

/-- A label in [0, 64) picks out its own column. -/
theorem picked_eq (x : Fin 64 → EReal) (t : BitVec 32) (h0 : 0 ≤ t.toInt) (h1 : t.toInt < 64) (hlt : t.toNat < 64) :
    picked x t = x ⟨t.toNat, hlt⟩ := by
  unfold picked
  rw [Finset.sum_eq_single (⟨t.toNat, hlt⟩ : Fin 64)]
  · rw [if_pos ((ofNat_eq_label_iff t hlt _).mpr rfl)]
  · intro k _ hk
    rw [if_neg]
    intro h
    exact hk (Fin.ext ((ofNat_eq_label_iff t hlt k).mp h))
  · intro h; exact absurd (Finset.mem_univ _) h

theorem label_toNat_lt (t : BitVec 32) (h0 : 0 ≤ t.toInt) (h1 : t.toInt < 64) : t.toNat < 64 := by
  have hw := t.isLt
  rw [BitVec.toInt_eq_toNat_cond] at h0 h1
  split at h0 <;> omega

/-- The negated log-softmax at the label is the shifted log-sum-exp form. -/
theorem neg_logSoftmax_eq (x : Fin 64 → EReal) (hx : ∀ k, ∃ r : ℝ, x k = (r : EReal)) (t : BitVec 32)
    (h0 : 0 ≤ t.toInt) (h1 : t.toInt < 64) (hlt : t.toNat < 64) :
    -((x ⟨t.toNat, hlt⟩ - rowMax x) - Ideal.log (∑ k : Fin 64, Ideal.exp (x k - rowMax x))) = rowLoss x t := by
  obtain ⟨M, hM⟩ := rowMax_real x hx
  obtain ⟨L, hL⟩ := logSumExp_real x hx
  obtain ⟨a, ha⟩ := hx ⟨t.toNat, hlt⟩
  unfold rowLoss
  rw [picked_eq x t h0 h1 hlt, hL, hM, ha, ← EReal.coe_sub, ← EReal.coe_sub, ← EReal.coe_neg, ← EReal.coe_add,
    ← EReal.coe_sub]
  congr 1
  ring

end GroupLoss

end
-- ==== Proof.RefRows.lean ====
/-
  Three pieces of the reference's label pick, read at a sample: the shift the log-softmax subtracts is the row's
  maximum; a label in [0, 64) is left as it is by the negative-index wrap; and its bounds mask is set.
-/
import proofs.«419858_j69733089018311_3_alg».proof.Proof.RefRead
import proofs.«419858_j69733089018311_3_alg».proof.Proof.Spec
import proofs.«419858_j69733089018311_3_alg».proof.Proof.RowLoss
import Idealize.ShloMosaic.PureOps.Ideal.Laws
import Idealize.ShloMosaic.PureOps.Reduce
import Idealize.ShloMosaic.Lib.Affine
import Idealize.ShloMosaic.Lib.Pipeline.Value
import Idealize.ShloMosaic.Lib.ValueIdx
import Idealize.ShloMosaic.Lib.ValueLayout
import Mathlib.Data.Finset.Fold

noncomputable section

namespace Cert.ReferenceIdeal.RefRows

open Cert.ReferenceIdeal Cert.ReferenceIdeal.Gen Cert.ReferenceIdeal.ReadP Idealize.ShloMosaic Idealize.ShloMosaic.ValueIdx

variable (x : (⟨S4194304x64, .f32⟩ : BufTy).Contents (Elt Ideal)) (tg : (⟨S4194304, .i32⟩ : BufTy).Contents (Elt Ideal))

/-- The index a row reduction reads at row b and column j is (b, j). -/
theorem lift_row (h : S4194304x64.Reduces [1] S4194304) (b : Fin 4194304) (j : Fin 64) : h.lift (ix1 b) j = ix2 b j := by
  funext ax; apply Fin.ext
  match ax with
  | ⟨0, _⟩ => rfl
  | ⟨1, _⟩ => rfl

/-- The logits' rows reduce along their 64 columns. -/
theorem reduces_row : S4194304x64.Reduces [1] S4194304 := by decide

/-- The shift: the row's maximum taken from −∞ (the reference takes the maximum with −∞ once more, which changes nothing). -/
theorem shift_apply (b : Fin 4194304) :
    val_main_call0_v2 (F := Ideal) x (ix1 b) = GroupLoss.rowMax (fun j => x (ix2 b j)) := by
  rw [val_main_call0_v2_apply, val_main_call0_v1_apply, val_main_call0_cst_0_apply]
  unfold val_main_call0_v0
  have e := Host.reduce_eq_fold_single (FloatOps.maximumf (F := Ideal) (φ := .f32)) x (val_main_call0_cst (F := Ideal))
    reducesTo_S4194304x64_S4194304_d1 reduces_row h_S_ (ix1 b)
  refine (congrArg (FloatOps.maximumf (F := Ideal) (φ := .f32) (FloatOps.ofBits .f32 0xFF800000#32)) e).trans ?_
  have ex : (x ∘ reduces_row.lift (ix1 b)) = fun j : Fin 64 => x (ix2 b j) :=
    funext fun j : Fin 64 => congrArg x (lift_row reduces_row b j)
  unfold GroupLoss.rowMax
  show max (Ideal.ofBits .f32 0xFF800000#32)
      ((Finset.univ : Finset (Fin 64)).fold max (Ideal.ofBits .f32 0xFF800000#32) (x ∘ reduces_row.lift (ix1 b))) = _
  rw [ex]
  exact max_eq_right ((Finset.le_fold_max _).mpr (Or.inl le_rfl))

/-- A label in [0, 64) is not negative, so the wrap's select keeps it: the wrapped index at any position is the label
    the position reads. -/
theorem wrapped_eq (ht : ∀ b, 0 ≤ (tg b).toInt ∧ (tg b).toInt < 64) (i : S4194304x1.Idx) :
    val_main_call1_v4 (F := Ideal) tg i = tg (idx_main_v1 i) := by
  rw [val_main_call1_v4_apply, val_main_call1_v1_apply, val_main_v1_apply, val_main_call1_v0_apply, val_main_call1_c_apply]
  have hlt : ¬IntOp.cmpi .slt (tg (idx_main_v1 i)) 0#32 = 1#1 := by
    rw [IntOp.cmpi_slt]
    have h0 := (ht (idx_main_v1 i)).1
    have hz : (0#32 : BitVec 32).toInt = 0 := by decide
    rw [hz]
    exact not_lt.mpr h0
  rw [eq_zero_of_ne_one hlt, select_zero]

/-- The same through the reshape to rank 3. -/
theorem index_eq (ht : ∀ b, 0 ≤ (tg b).toInt ∧ (tg b).toInt < 64) (i : S4194304x1x1.Idx) :
    val_main_call1_v5 (F := Ideal) tg i = tg (idx_main_v1 (idx_main_call1_v5 i)) := by
  rw [val_main_call1_v5_apply, wrapped_eq tg ht]

/-- A label in [0, 64) is its own wrapped index. -/
theorem index_apply (ht : ∀ b, 0 ≤ (tg b).toInt ∧ (tg b).toInt < 64) (b : Fin 4194304) :
    val_main_call1_v5 (F := Ideal) tg (ix3 b (0 : Fin 1) (0 : Fin 1)) = tg (ix1 b) := by
  rw [index_eq tg ht]
  refine congrArg tg (funext fun a => Fin.ext ?_)
  match a with
  | ⟨0, _⟩ => show ((b.val * 1 + 0) * 1 + 0) / 1 = b.val; omega

/-- At every position both bounds tests of the wrapped index hold. -/
theorem inBounds_eq_one (ht : ∀ b, 0 ≤ (tg b).toInt ∧ (tg b).toInt < 64) (i : S4194304x1x1.Idx) :
    val_main_call1_v11 (F := Ideal) tg i = 1#1 := by
  rw [val_main_call1_v11_apply, val_main_call1_v7_apply, val_main_call1_v10_apply, index_eq tg ht,
    val_main_call1_v6_apply, val_main_call1_c_2_apply, val_main_call1_v9_apply, val_main_call1_v8_apply,
    val_main_call1_c_1_apply]
  have hb := ht (idx_main_v1 (idx_main_call1_v5 i))
  have hz : (0#32 : BitVec 32).toInt = 0 := by decide
  have h63 : (63#32 : BitVec 32).toInt = 63 := by decide
  refine IntOp.andi_eq_one.mpr ⟨IntOp.cmpi_sge.mpr ?_, IntOp.cmpi_sle.mpr ?_⟩
  · rw [hz]; exact hb.1
  · rw [h63]; omega

/-- A fold of `and` from 1 over bits that are all 1 is 1. -/
theorem fold_andi_one {ι : Type} (s : Finset ι) (f : ι → BitVec 1) (hf : ∀ i, f i = 1#1) :
    s.fold IntOp.andi 1#1 f = 1#1 := by
  classical
  induction s using Finset.induction_on with
  | empty => rfl
  | insert a s ha ih => rw [Finset.fold_insert ha, ih, hf a]; rfl

/-- The unit axis the mask folds over. -/
theorem reduces_unit : S4194304x1x1.Reduces [2] S4194304x1 := by decide

/-- Its bounds mask (0 ≤ index ≤ 63) is set. -/
theorem mask_apply (ht : ∀ b, 0 ≤ (tg b).toInt ∧ (tg b).toInt < 64) (b : Fin 4194304) :
    val_main_call1_v12 (F := Ideal) tg (ix2 b (0 : Fin 1)) = 1#1 := by
  unfold val_main_call1_v12
  refine (Host.reduce_eq_fold_single IntOp.andi (val_main_call1_v11 (F := Ideal) tg) (val_main_call1_c_3 (F := Ideal))
    reducesTo_S4194304x1x1_S4194304x1_d2 reduces_unit h_S_ (ix2 b (0 : Fin 1))).trans ?_
  rw [val_main_call1_c_3_apply]
  exact fold_andi_one _ _ fun k => inBounds_eq_one tg ht _

end Cert.ReferenceIdeal.RefRows

end
-- ==== Proof.RefVal.lean ====
/-
  The reference's stages in closed form over the extended reals.

  For finite logits and labels in [0, 64) the negated picked log-softmax of a row is the row's cross-entropy in the
  shifted log-sum-exp form: −((x_t − M) − log ∑ exp (x − M)) = (log ∑ exp (x − M) + M) − x_t, every term a real number.
  The two scatter-adds by group id are sums over all samples against the group indicator (an id outside [0, 16) lands
  nowhere), and the final sum is the sum of all per-sample losses.
-/
import proofs.«419858_j69733089018311_3_alg».proof.Proof.RefRead
import proofs.«419858_j69733089018311_3_alg».proof.Proof.Spec
import proofs.«419858_j69733089018311_3_alg».proof.Proof.RowLoss
import proofs.«419858_j69733089018311_3_alg».proof.Proof.RefRows
import Idealize.ShloMosaic.PureOps.Ideal.Laws
import Idealize.ShloMosaic.Lib.Pipeline.Value
import Idealize.ShloMosaic.Lib.ValueIdx
import Idealize.ShloMosaic.Lib.ValueIdxRank1
import Idealize.ShloMosaic.Lib.ValueLayout

noncomputable section

namespace Cert.ReferenceIdeal.RefVal

open Cert.ReferenceIdeal Cert.ReferenceIdeal.Gen Cert.ReferenceIdeal.ReadP Idealize.ShloMosaic Idealize.ShloMosaic.ValueIdx

/-! ## The scatter by group id -/

/-- The scatter's dimension numbers: one index word per sample, landing on the one axis of the 16 groups. -/
abbrev sd := scatter_S16_S4194304x1_S4194304_n_0_0_1

/-- The scatter has no window axis: the window coordinate on the group axis is 0. -/
theorem sd_window (j : S4194304.Idx) : sd.window j 0 = 0 := by
  unfold ScatterDims.window
  rw [dif_neg]
  decide

/-- Sample j reads its one start-index component at (j, 0) of the index column. -/
theorem sd_siIdx (j : S4194304.Idx) (c : Fin sd.scatterDimsToOperandDims.length) :
    sd.siIdx j c = ix2 (j 0) (0 : Fin 1) := by
  funext a; refine Fin.ext ?_
  match a with
  | ⟨0, _⟩ => rfl
  | ⟨1, _⟩ =>
    show c.val = 0
    have := c.isLt
    have h : sd.scatterDimsToOperandDims.length = 1 := rfl
    omega

/-- The start on the group axis is that index word, read signed. -/
theorem sd_start (idx : IVec S4194304x1 32) (j : S4194304.Idx) :
    sd.start j idx 0 = (idx (ix2 (j 0) (0 : Fin 1))).toInt := by
  unfold ScatterDims.start
  rw [dif_pos (show (0 : Fin 1) ∈ sd.scatterDimsToOperandDims from List.mem_singleton.mpr rfl), sd_siIdx]
  rfl

/-- Where an update lands: group g exactly when its index word, read signed, is g. -/
theorem sd_result (idx : IVec S4194304x1 32) (b : Fin 4194304) (g : Fin 16) :
    sd.resultIdx? (ix1 b) idx = some (ix1 g) ↔ (idx (ix2 b (0 : Fin 1))).toInt = (g.val : Int) := by
  have hg := g.isLt
  unfold ScatterDims.resultIdx?
  by_cases h : ∀ a : Fin S16.rank, 0 ≤ sd.start (ix1 b) idx a + sd.window (ix1 b) a ∧ sd.start (ix1 b) idx a + sd.window (ix1 b) a < S16.size a
  · rw [dif_pos h, Option.some.injEq]
    have h0 : 0 ≤ (idx (ix2 b (0 : Fin 1))).toInt + ((0 : Nat) : Int) ∧ (idx (ix2 b (0 : Fin 1))).toInt + ((0 : Nat) : Int) < ((16 : Nat) : Int) := by
      have := h 0
      rw [sd_start, sd_window] at this
      exact this
    constructor
    · intro hf
      have hv : (sd.start (ix1 b) idx 0 + sd.window (ix1 b) 0).toNat = g.val := congrArg (fun f : S16.Idx => (f 0).val) hf
      rw [sd_start, sd_window] at hv
      change ((idx (ix2 b (0 : Fin 1))).toInt + ((0 : Nat) : Int)).toNat = g.val at hv
      omega
    · intro ht
      funext a
      obtain rfl : a = 0 := Subsingleton.elim _ _
      refine Fin.ext ?_
      show (sd.start (ix1 b) idx 0 + sd.window (ix1 b) 0).toNat = g.val
      rw [sd_start, sd_window]
      change ((idx (ix2 b (0 : Fin 1))).toInt + ((0 : Nat) : Int)).toNat = g.val
      omega
  · rw [dif_neg h]
    constructor
    · intro hf; exact absurd hf (by simp)
    · intro ht
      exfalso; apply h
      intro a
      obtain rfl : a = 0 := Subsingleton.elim _ _
      rw [sd_start, sd_window]
      change 0 ≤ (idx (ix2 b (0 : Fin 1))).toInt + ((0 : Nat) : Int) ∧ (idx (ix2 b (0 : Fin 1))).toInt + ((0 : Nat) : Int) < ((16 : Nat) : Int)
      omega

/-- A 32-bit word read signed is g exactly when it is g's word. -/
theorem toInt_eq_iff (w : BitVec 32) (g : Fin 16) : w.toInt = (g.val : Int) ↔ BitVec.ofNat 32 g.val = w := by
  have hg : (BitVec.ofNat 32 g.val).toInt = (g.val : Int) := by revert g; decide
  rw [← hg, BitVec.toInt_inj]
  exact eq_comm

/-- A sum over the rank-1 index set is the sum over its coordinate. -/
theorem sum_idx1 {n : Nat} (f : (⟨1, ![n]⟩ : Shape).Idx → EReal) : ∑ i, f i = ∑ a : Fin n, f (ix1 a) :=
  (Equiv.sum_comp (idxEquiv1 (n := n)).symm f).symm

/-- The scatter-add at group g: the operand's element plus the sum over all samples of the group indicator times
    the update. -/
theorem scatterAdd_apply (init : FVec Ideal S16 .f32) (idx : IVec S4194304x1 32) (upd : FVec Ideal S4194304 .f32) (g : Fin 16) :
    Host.scatterAdd (F := Ideal) (φ := .f32) sd init idx upd (ix1 g)
      = init (ix1 g) + ∑ b : Fin 4194304, GroupLoss.hot g (idx (ix2 b (0 : Fin 1))) * upd (ix1 b) := by
  show Ideal.hostScatterAdd sd init idx upd (ix1 g) = _
  unfold Ideal.hostScatterAdd
  refine congrArg (init (ix1 g) + ·) ?_
  rw [Finset.sum_filter, sum_idx1]
  refine Finset.sum_congr rfl fun b _ => ?_
  unfold GroupLoss.hot
  by_cases h : BitVec.ofNat 32 g.val = idx (ix2 b (0 : Fin 1))
  · rw [if_pos ((sd_result idx b g).mpr ((toInt_eq_iff _ g).mpr h)), if_pos h, one_mul]
  · rw [if_neg (fun hr => h ((toInt_eq_iff _ g).mp ((sd_result idx b g).mp hr))), if_neg h, zero_mul]

/-- The word of 1.0 denotes one. -/
theorem ofBits_one_f32 : Ideal.ofBits .f32 0x3F800000#32 = 1 := by
  simp [Ideal.ofBits, Ideal.ieee, -EReal.coe_mul]; norm_num

/-- The group ids, laid out as a column, read at a sample are the sample's group id. -/
theorem idx_col (b : Fin 4194304) : idx_main_v10 (ix2 b (0 : Fin 1)) = ix1 b := by
  funext a; match a with | ⟨0, _⟩ => rfl

/-- The same for the other column of group ids. -/
theorem idx_col' (b : Fin 4194304) : idx_main_v6 (ix2 b (0 : Fin 1)) = ix1 b := by
  funext a; match a with | ⟨0, _⟩ => rfl

variable (x : (⟨S4194304x64, .f32⟩ : BufTy).Contents (Elt Ideal)) (tg gr : (⟨S4194304, .i32⟩ : BufTy).Contents (Elt Ideal))

/-- The count of group g: the sum over all samples of the group indicator. -/
theorem counts_apply (g : Fin 16) :
    val_main_v11 (F := Ideal) gr (ix1 g) = GroupLoss.groupSum (fun b => gr (ix1 b)) (fun _ => 1) g := by
  unfold val_main_v11 GroupLoss.groupSum
  rw [show scatter_S16_S4194304x1_S4194304_n_0_0_1 = sd from rfl, scatterAdd_apply, val_main_v9_apply, val_main_cst_1_apply,
    Ideal.ofBits_def, Ideal.ofBits_zero_f32, zero_add]
  refine Finset.sum_congr rfl fun b _ => ?_
  rw [val_main_v10_apply, idx_col, val_main_v8_apply, val_main_cst_0_apply, Ideal.ofBits_def, ofBits_one_f32]

/-- The loss sum of group g: the sum over all samples of the indicator times the sample's stage value. -/
theorem sums_apply (g : Fin 16) :
    val_main_v7 (F := Ideal) x tg gr (ix1 g)
      = GroupLoss.groupSum (fun b => gr (ix1 b)) (fun b => val_main_v4 (F := Ideal) x tg (ix1 b)) g := by
  unfold val_main_v7 GroupLoss.groupSum
  rw [show scatter_S16_S4194304x1_S4194304_n_0_0_1 = sd from rfl, scatterAdd_apply, val_main_v5_apply, val_main_cst_apply,
    Ideal.ofBits_def, Ideal.ofBits_zero_f32, zero_add]
  refine Finset.sum_congr rfl fun b _ => ?_
  rw [val_main_v6_apply, idx_col']

/-- The total: the sum of all samples' stage values. -/
theorem total_apply :
    val_main_v18 (F := Ideal) x tg ix0 = ∑ b : Fin 4194304, val_main_v4 (F := Ideal) x tg (ix1 b) := by
  rw [val_main_v18_apply, val_main_cst_5_apply, Ideal.ofBits_def, Ideal.ofBits_zero_f32, zero_add]
  exact sum_idx1 _

/-! ## The pick of the label's column -/

/-- The gather's dimension numbers: per sample (a batching axis) one start index into the 64 columns, slices of one element. -/
abbrev gd := gather_S4194304x64_S4194304x1x1_S4194304x1_n_1_0_0_1_2_11

/-- Result position j reads its one start-index component at (j₀, j₁, 0) of the start indices. -/
theorem gd_siIdx (j : S4194304x1.Idx) (c : Fin gd.startIndexMap.length) :
    gd.siIdx j c = ix3 (j 0) (j 1) (0 : Fin 1) := by
  funext a; refine Fin.ext ?_
  match a with
  | ⟨0, _⟩ => rfl
  | ⟨1, _⟩ => rfl
  | ⟨2, _⟩ =>
    show c.val = 0
    have := c.isLt
    have h : gd.startIndexMap.length = 1 := rfl
    omega

/-- The gather at sample b: the operand's row b at the column the start index names, read signed and clamped into [0, 63]. -/
theorem gather_apply {α : Type} (xop : S4194304x64.Idx → α) (idx : IVec S4194304x1x1 32) (b : Fin 4194304) :
    Host.gather gd xop idx (ix2 b (0 : Fin 1))
      = xop (ix2 b (⟨min (idx (ix3 b (0 : Fin 1) (0 : Fin 1))).toInt.toNat 63, by omega⟩ : Fin 64)) := by
  unfold Host.gather
  congr 1
  funext a
  refine Fin.ext ?_
  match a with
  | ⟨0, _⟩ =>
    show gd.start (ix2 b (0 : Fin 1)) idx 0 + gd.batchCoord (ix2 b (0 : Fin 1)) 0 + gd.offCoord (ix2 b (0 : Fin 1)) 0 = b.val
    rw [gd.start_batching _ _ _ (List.mem_singleton.mpr rfl),
      gd.offCoord_eq_zero _ _ (fun h => ((gd.mem_sKept _).mp h).2 (List.mem_singleton.mpr rfl)), Nat.zero_add, Nat.add_zero]
    unfold GatherDims.batchCoord
    rw [dif_pos (show (0 : Fin S4194304x64.rank) ∈ gd.operandBatchingDims from List.mem_singleton.mpr rfl)]
    rfl
  | ⟨1, _⟩ =>
    show gd.start (ix2 b (0 : Fin 1)) idx 1 + gd.batchCoord (ix2 b (0 : Fin 1)) 1 + gd.offCoord (ix2 b (0 : Fin 1)) 1 = _
    rw [gd.batchCoord_eq_zero _ _ (by decide),
      gd.offCoord_eq_zero _ _ (fun h => ((gd.mem_sKept _).mp h).1 (List.mem_singleton.mpr rfl)), Nat.add_zero]
    unfold GatherDims.start
    rw [dif_pos (show (1 : Fin S4194304x64.rank) ∈ gd.startIndexMap from List.mem_singleton.mpr rfl), gd_siIdx]
    rfl

/-! ## The log-softmax of a row, read at an index -/

/-- The row maximum, laid back over the row, reads the row's maximum at every column. -/
theorem shiftRow_apply (b : Fin 4194304) (k : Fin 64) :
    val_main_call0_v4 (F := Ideal) x (ix2 b k) = GroupLoss.rowMax (fun j => x (ix2 b j)) := by
  rw [val_main_call0_v4_apply, val_main_call0_v3_apply,
    show idx_main_call0_v3 (idx_main_call0_v4 (ix2 b k)) = ix1 b from by funext a; match a with | ⟨0, _⟩ => rfl,
    RefRows.shift_apply]

/-- The centred logit x − M. -/
theorem centred_apply (b : Fin 4194304) (k : Fin 64) :
    val_main_call0_v5 (F := Ideal) x (ix2 b k) = x (ix2 b k) - GroupLoss.rowMax (fun j => x (ix2 b j)) := by
  rw [val_main_call0_v5_apply, Ideal.subf_def, shiftRow_apply]

/-- The row's sum of exponentials ∑ exp (x − M). -/
theorem sumExp_apply (b : Fin 4194304) :
    val_main_call0_v7 (F := Ideal) x (ix1 b)
      = ∑ k : Fin 64, Ideal.exp (x (ix2 b k) - GroupLoss.rowMax (fun j => x (ix2 b j))) := by
  rw [val_main_call0_v7_apply, val_main_call0_cst_1_apply, Ideal.ofBits_def, Ideal.ofBits_zero_f32, zero_add]
  refine Finset.sum_congr rfl fun k _ => ?_
  rw [show idx_main_call0_v7 (ix1 b) k = ix2 b k from by funext a; match a with | ⟨0, _⟩ => rfl | ⟨1, _⟩ => rfl,
    val_main_call0_v6_apply, Ideal.hostUnary_exp_def, centred_apply]

/-- Its logarithm, laid back over the row. -/
theorem logSum_apply (b : Fin 4194304) (k : Fin 64) :
    val_main_call0_v10 (F := Ideal) x (ix2 b k)
      = Ideal.log (∑ k : Fin 64, Ideal.exp (x (ix2 b k) - GroupLoss.rowMax (fun j => x (ix2 b j)))) := by
  rw [val_main_call0_v10_apply, val_main_call0_v9_apply, Ideal.hostUnary_log_def, val_main_call0_v8_apply,
    show idx_main_call0_v8 (idx_main_call0_v10 (ix2 b k)) = ix1 b from by funext a; match a with | ⟨0, _⟩ => rfl,
    sumExp_apply]

/-- The log-softmax (x − M) − log ∑ exp (x − M). -/
theorem logSoftmax_apply (b : Fin 4194304) (k : Fin 64) :
    val_main_v0 (F := Ideal) x (ix2 b k)
      = (x (ix2 b k) - GroupLoss.rowMax (fun j => x (ix2 b j)))
        - Ideal.log (∑ k : Fin 64, Ideal.exp (x (ix2 b k) - GroupLoss.rowMax (fun j => x (ix2 b j)))) := by
  rw [val_main_v0_apply, Ideal.subf_def, centred_apply, logSum_apply]

/-- A word that reads signed in [0, 64) clamps to itself. -/
theorem clamp_label (t : BitVec 32) (h0 : 0 ≤ t.toInt) (h1 : t.toInt < 64) : min t.toInt.toNat 63 = t.toNat := by
  have hw := t.isLt
  rw [BitVec.toInt_eq_toNat_cond] at h0 h1 ⊢
  split at h0 <;> omega

/-- The sample's stage value: the negated log-softmax of its row at its label. -/
theorem loss_read (ht : ∀ b, 0 ≤ (tg b).toInt ∧ (tg b).toInt < 64) (b : Fin 4194304) (hlt : (tg (ix1 b)).toNat < 64) :
    val_main_v4 (F := Ideal) x tg (ix1 b)
      = -((x (ix2 b (⟨(tg (ix1 b)).toNat, hlt⟩ : Fin 64)) - GroupLoss.rowMax (fun j => x (ix2 b j)))
          - Ideal.log (∑ k : Fin 64, Ideal.exp (x (ix2 b k) - GroupLoss.rowMax (fun j => x (ix2 b j))))) := by
  rw [val_main_v4_apply, Ideal.hostNegf_def, Ideal.negf_def, val_main_v3_apply,
    show idx_main_v3 (ix1 b) = ix2 b (0 : Fin 1) from by
      funext a; refine Fin.ext ?_; match a with | ⟨0, _⟩ => exact Nat.div_one _ | ⟨1, _⟩ => rfl,
    val_main_v2_apply, RefRows.mask_apply tg ht, select_one]
  unfold val_main_call1_v13
  rw [show gather_S4194304x64_S4194304x1x1_S4194304x1_n_1_0_0_1_2_11 = gd from rfl, gather_apply, logSoftmax_apply]
  have hc : (⟨min (val_main_call1_v5 (F := Ideal) tg (ix3 b (0 : Fin 1) (0 : Fin 1))).toInt.toNat 63, by omega⟩ : Fin 64)
      = ⟨(tg (ix1 b)).toNat, hlt⟩ := by
    refine Fin.ext ?_
    show min (val_main_call1_v5 (F := Ideal) tg (ix3 b (0 : Fin 1) (0 : Fin 1))).toInt.toNat 63 = (tg (ix1 b)).toNat
    rw [RefRows.index_apply tg ht]
    exact clamp_label _ (ht _).1 (ht _).2
  rw [hc]

/-- A sample's stage value is its row's cross-entropy against its label. -/
theorem loss_apply (hx : ∀ i, ∃ r : ℝ, x i = (r : EReal)) (ht : ∀ b, 0 ≤ (tg b).toInt ∧ (tg b).toInt < 64) (b : Fin 4194304) :
    val_main_v4 (F := Ideal) x tg (ix1 b) = GroupLoss.rowLoss (fun j => x (ix2 b j)) (tg (ix1 b)) := by
  have hlt := GroupLoss.label_toNat_lt (tg (ix1 b)) (ht _).1 (ht _).2
  rw [loss_read x tg ht b hlt]
  exact GroupLoss.neg_logSoftmax_eq (fun j => x (ix2 b j)) (fun k => hx _) (tg (ix1 b)) (ht _).1 (ht _).2 hlt

end Cert.ReferenceIdeal.RefVal

end
-- ==== Proof.PreDecode.lean ====
/-
  What the precondition says of the inputs, decoded: every logit is a real number, every label lies in [0, 64) and
  every group id in [0, 16) (as signed 32-bit integers).
-/
import proofs.«419858_j69733089018311_3_alg».proof.Pre_finite_inputs
import proofs.«419858_j69733089018311_3_alg».proof.Proof.Gen.Pre_finite_inputs
import Idealize.ShloMosaic.PureOps.Ideal
import Idealize.ShloMosaic.PureOps.Ideal.Laws
import Idealize.ShloMosaic.Lib.ReduceAll
import Idealize.ShloMosaic.Lib.StableHlo.Predicate
import Idealize.ShloMosaic.Lib.ValueIdx

noncomputable section

namespace Cert.Pre_finite_inputs.Decode

open Idealize.ShloMosaic Idealize.ShloMosaic.ValueIdx Cert.Pre_finite_inputs Cert.Pre_finite_inputs.Gen

/-- The pattern 0x7F800000 (sign 0, exponent all ones, fraction 0) denotes +∞. -/
theorem inf_bits : Ideal.ofBits .f32 (0x7F800000#32) = (⊤ : EReal) := by
  simp [Ideal.ofBits, Ideal.ieee]

/-- An extended real whose absolute value max x (-x) is below +∞ is a real: both ⊥ and ⊤ have absolute value ⊤. -/
theorem real_of_abs_lt_top (x : EReal) (hx : max x (-x) < ⊤) : ∃ r : ℝ, x = (r : EReal) := by
  induction x using EReal.rec with
  | bot => simp at hx
  | coe r => exact ⟨r, rfl⟩
  | top => simp at hx

/-- The rank-0 shape has one index. -/
instance : Subsingleton S_.Idx := ⟨fun a b => funext fun d => d.elim0⟩

/-- One element of the float test: |v| < +∞, as a 1-bit word equal to 1, makes v a real. -/
theorem real_of_test (v : Ideal .f32)
    (hv : FloatOps.cmpf .olt (FloatOps.hostAbsf v) (FloatOps.ofBits (F := Ideal) .f32 (0x7F800000#32)) = 1#1) :
    ∃ r : ℝ, v = (r : EReal) := by
  rw [Ideal.hostAbsf_def, Ideal.absf_def, Ideal.ofBits_def, inf_bits, Ideal.cmpf_def] at hv
  unfold Ideal.cmp at hv
  exact real_of_abs_lt_top v (of_decide_eq_true ((StableHlo.Predicate.ofBool_eq_one_iff _).1 hv))

/-- One element of an integer range test: (a ≥ 0) and (a < c), as 1-bit words whose conjunction is 1, bound the signed value. -/
theorem range_of_test (a c : BitVec 32)
    (ha : IntOp.andi (IntOp.cmpi .sge a 0#32) (IntOp.cmpi .slt a c) = 1#1) : 0 ≤ a.toInt ∧ a.toInt < c.toInt := by
  obtain ⟨h1, h2⟩ := IntOp.andi_eq_one.1 ha
  exact ⟨by simpa using IntOp.cmpi_sge.1 h1, IntOp.cmpi_slt.1 h2⟩

/-- The precondition, all ones, gives: finite logits, labels in range, group ids in range. -/
theorem decode (x : FVec Ideal S4194304x64 .f32) (tg gr : IVec S4194304 32)
    (h : Cert.Pre_finite_inputs.fn (F := Ideal) x tg gr = fun _ => 1#1) :
    (∀ i, ∃ r : ℝ, x i = (r : EReal))
      ∧ (∀ b, 0 ≤ (tg b).toInt ∧ (tg b).toInt < 64)
      ∧ (∀ b, 0 ≤ (gr b).toInt ∧ (gr b).toInt < 16) := by
  have h0 := congrFun h ValueIdx.ix0
  dsimp only [fn, fn_part1] at h0
  obtain ⟨h12, h3⟩ := IntOp.andi_eq_one.1 h0
  obtain ⟨h1, h2⟩ := IntOp.andi_eq_one.1 h12
  have hx := Host.reduce_andi_all _ _ _ _ _ h1
  have ht := Host.reduce_andi_all _ _ _ _ _ h2
  have hg := Host.reduce_andi_all _ _ _ _ _ h3
  refine ⟨fun i => real_of_test (x i) (hx i), fun b => ?_, fun b => ?_⟩
  · exact range_of_test (tg b) 64#32 (ht b)
  · exact range_of_test (gr b) 16#32 (hg b)

end Cert.Pre_finite_inputs.Decode

end
-- ==== Proof.Algebraic.lean ====
/-
  The two idealized programs compute the same three results.

  With every logit finite, every label in [0, 64) and every group id in [0, 16): the kernel's loss sum of group g — the
  sum over the grid's 512 points of the points' matrix-product entries — and the reference's scatter-add are both the
  sum over all samples in group g of the samples' cross-entropies; the counts likewise with ones; the host operations
  that follow are the same on both sides; and the kernel's total, the loss sums added over the 16 groups, is the
  reference's sum over all samples because every sample lies in exactly one group.
-/
import proofs.«419858_j69733089018311_3_alg».proof.Defs
import proofs.«419858_j69733089018311_3_alg».proof.Proof.KRun
import proofs.«419858_j69733089018311_3_alg».proof.Proof.KBridge
import proofs.«419858_j69733089018311_3_alg».proof.Proof.KTotals
import proofs.«419858_j69733089018311_3_alg».proof.Proof.SpecSums
import proofs.«419858_j69733089018311_3_alg».proof.Proof.RefRunH
import proofs.«419858_j69733089018311_3_alg».proof.Proof.RefVal
import proofs.«419858_j69733089018311_3_alg».proof.Proof.PreDecode

noncomputable section

open Idealize.ShloMosaic Idealize.ShloMosaic.TcCoe Idealize.SL.Sem Idealize.ShloMosaic.ValueIdx

namespace Cert.Proof.Alg

open Cert.KernelIdeal.Acc Cert.ReferenceIdeal.ReadP Cert.ReferenceIdeal.RefVal

/-- The 16 indices of a 16-vector, as Fin 16. -/
def idx16 : (⟨1, ![16]⟩ : Shape).Idx ≃ Fin 16 where
  toFun i := i 0
  invFun g := ix1 g
  left_inv i := (eq_ix1 i).symm
  right_inv _ := rfl

section

variable (m : (ℓ : Loc Cert.KernelIdeal.nD Cert.KernelIdeal.τ Cert.KernelIdeal.sig) → Buf (Elt Ideal) ℓ)
  (c : Dev Cert.KernelIdeal.nD)

/-- The three argument arrays. -/
abbrev X : (⟨2, ![4194304, 64]⟩ : Shape).Idx → EReal :=
  m ((c.tc : Thread Cert.KernelIdeal.nD Cert.KernelIdeal.τ).loc Cert.KernelIdeal.main_arg0)
abbrev TG : (⟨1, ![4194304]⟩ : Shape).Idx → BitVec 32 :=
  m ((c.tc : Thread Cert.KernelIdeal.nD Cert.KernelIdeal.τ).loc Cert.KernelIdeal.main_arg1)
abbrev GR : (⟨1, ![4194304]⟩ : Shape).Idx → BitVec 32 :=
  m ((c.tc : Thread Cert.KernelIdeal.nD Cert.KernelIdeal.τ).loc Cert.KernelIdeal.main_arg2)

variable (hx : ∀ i, ∃ r : ℝ, X m c i = (r : EReal)) (ht : ∀ b, 0 ≤ (TG m c b).toInt ∧ (TG m c b).toInt < 64)
  (hg : ∀ b, 0 ≤ (GR m c b).toInt ∧ (GR m c b).toInt < 16)

/-- A sample's cross-entropy. -/
abbrev ps (b : Fin 4194304) : EReal := GroupLoss.rowLoss (fun j => X m c (ix2 b j)) (TG m c (ix1 b))

/-- The kernel's loss sum of group g is the group's sum of the samples' cross-entropies. -/
theorem sumK_eq (g : Fin 16) : sumK m c (ix1 g) = GroupLoss.groupSum (fun b => GR m c (ix1 b)) (ps m c) g := by
  rw [sumK_apply, prod_total]
  rfl

/-- The kernel's count of group g. -/
theorem cntK_eq (g : Fin 16) : cntK m c (ix1 g) = GroupLoss.groupSum (fun b => GR m c (ix1 b)) (fun _ => 1) g := by
  rw [cntK_apply, prod_total]
  rfl

include hx ht in
/-- The reference's loss sums are the kernel's. -/
theorem sums_eq : val_main_v7 (F := Ideal) (X m c) (TG m c) (GR m c) = sumK m c := by
  funext i
  obtain ⟨g, rfl⟩ : ∃ g : Fin 16, i = ix1 g := ⟨i 0, eq_ix1 i⟩
  rw [sumK_eq, sums_apply]
  unfold GroupLoss.groupSum
  refine Finset.sum_congr rfl fun b _ => ?_
  exact congrArg (GroupLoss.hot g (GR m c (ix1 b)) * ·) (loss_apply (X m c) (TG m c) hx ht b)

/-- The reference's counts are the kernel's. -/
theorem counts_eq : val_main_v11 (F := Ideal) (GR m c) = cntK m c := by
  funext i
  obtain ⟨g, rfl⟩ : ∃ g : Fin 16, i = ix1 g := ⟨i 0, eq_ix1 i⟩
  rw [cntK_eq, counts_apply]

include hx ht hg in
/-- The reference's total over all samples is the kernel's loss sums added over the groups. -/
theorem total_eq :
    val_main_v18 (F := Ideal) (X m c) (TG m c)
      = Host.reduceAdd (sumK m c) (constant (F := Ideal) Cert.KernelIdeal.S_ .f32 0x00000000#32)
          Cert.KernelIdeal.Facts₀.reducesTo_S16_S_d0 Cert.KernelIdeal.Facts₀.h_S_ := by
  funext i
  obtain rfl : i = ix0 := eq_ix0 i
  rw [total_apply]
  show _ = Ideal.hostReduceAdd Cert.KernelIdeal.Facts₀.reducesTo_S16_S_d0 (sumK m c) (Ideal.ofBits .f32 0x00000000#32) ix0
  rw [Ideal.hostReduceAdd_total Cert.KernelIdeal.Facts₀.reducesTo_S16_S_d0 (fun b => b.elim0), Ideal.ofBits_zero_f32, zero_add]
  rw [← idx16.symm.sum_comp]
  show _ = ∑ g : Fin 16, sumK m c (ix1 g)
  simp only [sumK_eq]
  rw [GroupLoss.sum_groupSum _ _ (fun b => hg (ix1 b))]
  refine Finset.sum_congr rfl fun b _ => ?_
  exact loss_apply (X m c) (TG m c) hx ht b

include hx ht in
/-- The per-group means agree: the same host operations on equal sums and counts. -/
theorem mean_eq : val_main_v17 (F := Ideal) (X m c) (TG m c) (GR m c) = meanK m c := by
  unfold val_main_v17 val_main_v13 val_main_v16 val_main_v15 val_main_v12 val_main_v14 val_main_call2_v1 val_main_call2_v0
    val_main_cst_4 val_main_cst_2 val_main_cst_3 meanK
  rw [sums_eq m c hx ht, counts_eq m c]

include hx ht hg in
/-- The overall losses agree. -/
theorem loss_eq : val_main_v19 (F := Ideal) (X m c) (TG m c) = lossK m c := by
  unfold val_main_v19 val_main_cst_6 lossK
  rw [total_eq m c hx ht hg]

end

/-- At the ideal instance, from memories agreeing on the three arguments, both programs run and end with the same three
    results: the kernel's are read off its frame run and the host operations after it, the reference's off its stages. -/
theorem algebraic : Cert.algebraic_KernelIdeal_ReferenceIdeal := by
  intro m ρ m' ρ' hpre hagree
  refine ⟨fun c => lossK m c, fun c => meanK m c, fun c => cntK m c, Cert.KernelIdeal.Acc.run m ρ, ?_⟩
  refine (θ_run Cert.ReferenceIdeal.defs _ _).mono (fun _ h c => ?_) (Cert.ReferenceIdeal.RunH.run (F := Ideal) m' ρ')
  obtain ⟨h19, h17, h11, ha0, ha1, ha2⟩ := h c
  obtain ⟨e0, e1, e2⟩ := hagree c
  obtain ⟨hx, ht, hg⟩ := Cert.Pre_finite_inputs.Decode.decode _ _ _ (hpre c)
  rw [e0, e1] at h19
  rw [e0, e1, e2] at h17
  rw [e2] at h11
  exact ⟨h19.trans (loss_eq m c hx ht hg), h17.trans (mean_eq m c hx ht), h11.trans (counts_eq m c), ha0, ha1, ha2⟩

/-- The reference's frame: its run with the results dropped. -/
theorem frame_ref : Cert.frame_ReferenceIdeal := fun m ρ _ =>
  (θ_run Cert.ReferenceIdeal.defs _ _).mono (fun _ h c => (h c).2.2.2) (Cert.ReferenceIdeal.RunH.run (F := Ideal) m ρ)

end Cert.Proof.Alg

end
-- ==== Proof.lean ====
/-
  The certificate: the kernel streams 4194304 rows of 64 logits in 512 blocks of 8192 rows on a 2 × 256 grid, computes each
  row's cross-entropy against its label in the shifted log-sum-exp form, and adds the per-group loss sums and counts of a
  block by one matrix product of the block's one-hot group matrix with the columns [loss, 1], accumulated into row 0 of
  a core's 8 × 16 output block; the host then sums the blocks' rows, divides sums by counts where a count is positive,
  and divides the total of the group sums by the number of samples. The reference takes the log-softmax, picks each row's
  label, negates, scatter-adds losses and ones by group id, forms the same masked quotient, and takes the mean over all
  samples. Over the extended reals, for finite logits, labels in [0, 64) and group ids in [0, 16), the two compute the
  same three results: the per-sample losses agree as real numbers; a scatter-add by group id and a sum against the
  group indicator are the same sum in another order; and because every sample lies in exactly one of the 16 groups, the
  total of the group sums is the sum over all samples.

  The three frames: the two kernels' are the generated frame runs; the reference's is its run with the results dropped.
  The ideal pass rewrote nothing, so the kernel's idealization is its own text read at the ideal instance.
-/
import proofs.«419858_j69733089018311_3_alg».proof.Defs
import proofs.«419858_j69733089018311_3_alg».proof.Proof.Gen.Kernel
import proofs.«419858_j69733089018311_3_alg».proof.Proof.Gen.Kernel.Skeleton
import proofs.«419858_j69733089018311_3_alg».proof.Proof.Gen.Kernel.Launch
import proofs.«419858_j69733089018311_3_alg».proof.Proof.Gen.Kernel.Points
import proofs.«419858_j69733089018311_3_alg».proof.Proof.Gen.Kernel.Frame
import proofs.«419858_j69733089018311_3_alg».proof.Proof.Gen.KernelIdeal
import proofs.«419858_j69733089018311_3_alg».proof.Proof.Gen.KernelIdeal.Skeleton
import proofs.«419858_j69733089018311_3_alg».proof.Proof.Gen.KernelIdeal.Launch
import proofs.«419858_j69733089018311_3_alg».proof.Proof.Gen.KernelIdeal.Points
import proofs.«419858_j69733089018311_3_alg».proof.Proof.Gen.KernelIdeal.Frame
import proofs.«419858_j69733089018311_3_alg».proof.Proof.Gen.ReferenceIdeal
import proofs.«419858_j69733089018311_3_alg».proof.Proof.Gen.Pre_finite_inputs
import proofs.«419858_j69733089018311_3_alg».proof.Proof.Algebraic
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.Proof.Alg.frame_ref,
  trivial,
  Cert.Proof.Alg.algebraic⟩

end Cert.Proof

end
